-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "fold_c_134217728_13421773" .f32 0x41200000#32 ((134217728 / 13421773 : ℝ) : EReal)
  ∧ IdealRules.named_const.Statement Cert.KernelIdeal.κ "fold_c_134217728_13421773" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel

variable [Facts]

def fn_part1 {F : FTy → Type} [FloatOps F] (main_v13 : IVec S_ 1) (main_v16 : IVec S4096x768 1) : IVec S_ 1 :=
  let main_c_5 : IVec S_ 1 := constantI S_ 1 1#1
  let main_v17 : IVec S_ 1 := (fun x v => Host.reduce IntOp.andi x v reducesTo_S4096x768_S_d0_1 h_S_) main_v16 main_c_5
  let main_v18 : IVec S_ 1 := andi main_v13 main_v17
  main_v18

def fn {F : FTy → Type} [FloatOps F] (main_arg0 : FVec F S4096x768 .f32) (main_arg1 : FVec F S4096x768 .f32) (main_arg2 : FVec F S4096x768 .f32) (main_arg3 : FVec F S4096x768 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S4096x768 .f32 := Host.absf main_arg2
  let main_cst_2 : FVec F S_ .f32 := constant S_ .f32 0x7F800000#32
  let main_v10 : FVec F S4096x768 .f32 := broadcastInDim S4096x768 ![] bcast_S_S4096x768 main_cst_2
  let main_v11 : IVec S4096x768 1 := cmpf .olt main_v9 main_v10
  let main_c_3 : IVec S_ 1 := constantI S_ 1 1#1
  let main_v12 : IVec S_ 1 := (fun x v => Host.reduce IntOp.andi x v reducesTo_S4096x768_S_d0_1 h_S_) main_v11 main_c_3
  let main_v13 : IVec S_ 1 := andi main_v8 main_v12
  let main_v14 : FVec F S4096x768 .f32 := Host.absf main_arg3
  let main_cst_4 : FVec F S_ .f32 := constant S_ .f32 0x7F800000#32
  let main_v15 : FVec F S4096x768 .f32 := broadcastInDim S4096x768 ![] bcast_S_S4096x768 main_cst_4
  let main_v16 : IVec S4096x768 1 := cmpf .olt main_v14 main_v15
  fn_part1 (F := F) main_v13 main_v16
-- ==== Kernel.lean ====
abbrev S4096x768 : Shape := ⟨2, ![4096, 768]⟩
abbrev S4096x1 : Shape := ⟨2, ![4096, 1]⟩
abbrev S512x768 : Shape := ⟨2, ![512, 768]⟩
abbrev S256x768 : Shape := ⟨2, ![256, 768]⟩
abbrev S512x1 : Shape := ⟨2, ![512, 1]⟩
abbrev S512 : Shape := ⟨1, ![512]⟩
abbrev S256 : Shape := ⟨1, ![256]⟩
abbrev S256x1 : Shape := ⟨2, ![256, 1]⟩
abbrev S768x256 : Shape := ⟨2, ![768, 256]⟩
abbrev S512x256 : Shape := ⟨2, ![512, 256]⟩
abbrev S_ : Shape := ⟨0, ![]⟩

abbrev nBuf : Space → Nat
  | .hbm => 14
  | .vmem => 18
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x1, .f32⟩
  | .hbm, ⟨5, _⟩ => ⟨S4096x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x768, .f32⟩
  | .local _ .vmem, ⟨1, _⟩ => ⟨S512x768, .f32⟩
  | .local _ .vmem, ⟨2, _⟩ => ⟨S256x768, .f32⟩
  | .local _ .vmem, ⟨3, _⟩ => ⟨S256x768, .f32⟩
  | .local _ .vmem, ⟨4, _⟩ => ⟨S512x768, .f32⟩
  | .local _ .vmem, ⟨5, _⟩ => ⟨S512x768, .f32⟩
  | .local _ .vmem, ⟨6, _⟩ => ⟨S256x768, .f32⟩
  | .local _ .vmem, ⟨7, _⟩ => ⟨S256x768, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v112 : BitVec 1 := Scalar.cmpi .eq arg1 c15_i32
  let v113 : BitVec 32 := Scalar.extui v112
  let c0_i32_50 : BitVec 32 := 0#32
  let v114 : BitVec 1 := Scalar.cmpi .ne v113 c0_i32_50
  v114

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x768_S512x768_0_0 : ∀ a, (![0, 0] : Fin 2 → Nat) a + S512x768.size a ≤ S512x768.size a
  h_S512x768 : 0 < S512x768.numel
  reduces_S512x768_S512 : S512x768.Reduces [1] S512
  shapeCasts_S512_S512x1 : S512.ShapeCasts S512x1
  broadcasts_S512x1_S512x768 : S512x1.Broadcasts S512x768
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  reduces_S256x768_S256 : S256x768.Reduces [1] S256
  shapeCasts_S256_S256x1 : S256.ShapeCasts S256x1
  broadcasts_S256x1_S256x768 : S256x1.Broadcasts S256x768
  transposes_S256x768_p1_0_S768x256 : S256x768.Transposes [1, 0] S768x256
  reduces_S512x256_S512 : S512x256.Reduces [1] S512
  broadcasts_S512x1_S512x256 : S512x1.Broadcasts S512x256
  reducesTo_S4096x1_S_d0_1 : S4096x1.ReducesTo [0, 1] S_
  h_S_ : 0 < S_.numel
  dot_S512x768_S768x256_S512x256_1_0_0_1_n_n_wf : DotDims.WF S512x768 S768x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S4096x768.size a
  hwx0_1 : ∀ i : grid0.Coords, EltTy.bits .f32 = 32 ∨ (Rect.block (s := S4096x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S4096x768.size a
  hwx0_2 : ∀ i : grid0.Coords, EltTy.bits .f32 = 32 ∨ (Rect.block (s := S4096x768) S512x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S4096x768.size a
  hwx0_3 : ∀ i : grid0.Coords, EltTy.bits .f32 = 32 ∨ (Rect.block (s := S4096x768) S256x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)

variable [Facts₀]

def dot_S512x768_S768x256_S512x256_1_0_0_1_n_n : DotDims S512x768 S768x256 S512x256 where
  lhsContracting := [1]
  rhsContracting := [0]
  lhsNonContracting := [0]
  rhsNonContracting := [1]
  lhsBatch := []
  rhsBatch := []
  wf := dot_S512x768_S768x256_S512x256_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x768 : Shape := ⟨2, ![4096, 768]⟩
abbrev S_ : Shape := ⟨0, ![]⟩
abbrev S4096 : Shape := ⟨1, ![4096]⟩
abbrev S4096x1 : Shape := ⟨2, ![4096, 1]⟩
abbrev S768x4096 : Shape := ⟨2, ![768, 4096]⟩
abbrev S4096x4096 : Shape := ⟨2, ![4096, 4096]⟩

abbrev nBuf : Space → Nat
  | .hbm => 98
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x768, .f32⟩
  | .hbm, ⟨23, _⟩ => ⟨S4096x768, .f32⟩
  | .hbm, ⟨24, _⟩ => ⟨S768x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x768, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x768, .f32⟩
  | .hbm, ⟨52, _⟩ => ⟨S4096x768, .f32⟩
  | .hbm, ⟨53, _⟩ => ⟨S4096x768, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x768, .f32⟩
  | .hbm, ⟨62, _⟩ => ⟨S4096x768, .f32⟩
  | .hbm, ⟨63, _⟩ => ⟨S768x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096x1, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_15 : Ref sig .tc := ⟨.hbm, 86, rfl⟩
abbrev main_v66 : Ref sig .tc := ⟨.hbm, 87, rfl⟩
abbrev main_cst_16 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_17 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  transposes_S4096x768_S768x4096_1_0 : S4096x768.Transposes [1, 0] S768x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S4096x1_S4096x4096_0_1 : S4096x1.BroadcastsInDim S4096x4096 (![0, 1] : Fin 2 → Fin S4096x4096.rank)
  reducesTo_S4096x4096_S_d0_1 : S4096x4096.ReducesTo [0, 1] S_
  dot_S4096x768_S768x4096_S4096x4096_1_0_0_1_n_n_wf : DotDims.WF S4096x768 S768x4096 S4096x4096 [1] [0] [0] [1] [] []

variable [Facts₀]

def dot_S4096x768_S768x4096_S4096x4096_1_0_0_1_n_n : DotDims S4096x768 S768x4096 S4096x4096 where
  lhsContracting := [1]
  rhsContracting := [0]
  lhsNonContracting := [0]
  rhsNonContracting := [1]
  lhsBatch := []
  rhsBatch := []
  wf := dot_S4096x768_S768x4096_S4096x4096_1_0_0_1_n_n_wf

class Facts : Prop extends Facts₀ where

variable [Facts]
-- ==== Proof.KernelStep.lean ====
/-
  What one grid point makes of the carried state of a block of 512 rows, as pure functions of the four input
  blocks and the six carried columns: the new shifts (running row maxima), the rescaled sums of exponentials and
  the rescaled weighted sums, each composed from the body's arithmetic; and the two output columns the last
  column block computes from the final state.
-/
import proofs.«139187_j678604833494_1_alg».proof.Proof.Gen.KernelIdeal.Skeleton

noncomputable section

namespace Cert.KernelIdeal.Step

open Idealize.ShloMosaic Cert.KernelIdeal Cert.KernelIdeal.Gen

variable {F : FTy → Type} [FloatOps F] [Named F]

/-- The block of student logits: normalised rows of x0 against normalised rows of x1, over the temperature. -/
def logitsS (x0 : Vec F S512x768 .f32) (x1 : Vec F S256x768 .f32) : FVec F S512x256 .f32 :=
  k0_pay12 (k0_pay7 x0) (k0_pay8 x1)

/-- The block of teacher logits, of x2 against x3. -/
def logitsT (x2 : Vec F S512x768 .f32) (x3 : Vec F S256x768 .f32) : FVec F S512x256 .f32 :=
  k0_pay13 (k0_pay9 x2) x3 (k0_pay10 x3) k0_pay11

/-- The new student shift. -/
def stepMs (x0 : Vec F S512x768 .f32) (x1 : Vec F S256x768 .f32) (ms : Vec F S512x1 .f32) : FVec F S512x1 .f32 :=
  k0_pay15 (k0_pay7 x0) (k0_pay8 x1) ms

/-- The new student sum of exponentials. -/
def stepLs (x0 : Vec F S512x768 .f32) (x1 : Vec F S256x768 .f32) (ms ls : Vec F S512x1 .f32) : FVec F S512x1 .f32 :=
  k0_pay18 (k0_pay7 x0) (k0_pay8 x1) ms ls

/-- The new student-weighted sum of logit differences. -/
def stepAts (x0 : Vec F S512x768 .f32) (x1 : Vec F S256x768 .f32) (x2 : Vec F S512x768 .f32) (x3 : Vec F S256x768 .f32)
    (ms ats : Vec F S512x1 .f32) : FVec F S512x1 .f32 :=
  k0_pay19 (k0_pay7 x0) (k0_pay8 x1) (k0_pay9 x2) x3 (k0_pay10 x3) k0_pay11 ms ats

/-- The new teacher shift. -/
def stepMt (x2 : Vec F S512x768 .f32) (x3 : Vec F S256x768 .f32) (mt : Vec F S512x1 .f32) : FVec F S512x1 .f32 :=
  k0_pay20 (k0_pay9 x2) x3 (k0_pay10 x3) k0_pay11 mt

/-- The new teacher sum of exponentials. -/
def stepLt (x2 : Vec F S512x768 .f32) (x3 : Vec F S256x768 .f32) (mt lt : Vec F S512x1 .f32) : FVec F S512x1 .f32 :=
  k0_pay27 (logitsT x2 x3) lt (stepMt x2 x3 mt) (k0_pay21 (k0_pay9 x2) x3 (k0_pay10 x3) k0_pay11 mt)

/-- The new teacher-weighted sum of negated logit differences. -/
def stepAst (x0 : Vec F S512x768 .f32) (x1 : Vec F S256x768 .f32) (x2 : Vec F S512x768 .f32) (x3 : Vec F S256x768 .f32)
    (mt ast : Vec F S512x1 .f32) : FVec F S512x1 .f32 :=
  k0_pay28 (logitsT x2 x3) (k0_pay14 (k0_pay7 x0) (k0_pay8 x1) (k0_pay9 x2) x3 (k0_pay10 x3) k0_pay11) ast
    (stepMt x2 x3 mt) (k0_pay21 (k0_pay9 x2) x3 (k0_pay10 x3) k0_pay11 mt)

/-- The first output column from a final state: the teacher-weighted mean plus the difference of log-sum-exps. -/
def lossS (ms ls mt lt ast : Vec F S512x1 .f32) : FVec F S512x1 .f32 := k0_pay32 ms ls mt lt ast lt

/-- The second output column from a final state. -/
def lossT (ms ls mt lt ats : Vec F S512x1 .f32) : FVec F S512x1 .f32 := k0_pay33 ms ls mt lt ats ls

end Cert.KernelIdeal.Step

end
-- ==== Proof.KernelPieces.lean ====
/-
  What each control case of the body leaves in the six carried columns and, at the last column block, in the two
  output columns: the covering stores' values read back. The first column block stores the initial state (minus
  infinity for the shifts, zero for the sums), reads it back and steps it; every other block steps what the block
  before left; the last block also computes the two outputs from the state it has just stored.
-/
import proofs.«139187_j678604833494_1_alg».proof.Proof.FrameKernelIdeal
import proofs.«139187_j678604833494_1_alg».proof.Proof.KernelStep
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen Cert.KernelIdeal.Step

variable {F : FTy → Type} [FloatOps F] [Named F]

/-- The pair (0, 0) is zero in both coordinates. -/
theorem hz : (![0, 0] : Fin 2 → Nat) = fun _ => 0 := funext fun a => by fin_cases a <;> rfl

/-- The initial shift: minus infinity in every row. -/
abbrev ninf : Vec F S512x1 .f32 := broadcast S512x1 (Scalar.ofBits .f32 0xFF800000#32)
/-- The initial sums: zero in every row. -/
abbrev zero : Vec F S512x1 .f32 := broadcast S512x1 (Scalar.ofBits .f32 0x00000000#32)

/-- A shape cast of a column to its own shape is the identity: the four stored columns that pass through one. -/
private theorem pay24_id (v : FVec F S512x1 .f32) : k0_pay24 v = v := by unfold k0_pay24; exact shapeCast_self _ _
private theorem pay25_id (v : FVec F S512x1 .f32) : k0_pay25 v = v := by unfold k0_pay25; exact shapeCast_self _ _
private theorem pay26_id (v : FVec F S512x1 .f32) : k0_pay26 v = v := by unfold k0_pay26; exact shapeCast_self _ _
private theorem pay29_id (v : FVec F S512x1 .f32) : k0_pay29 v = v := by unfold k0_pay29; exact shapeCast_self _ _

/-- The six initial columns the first block stores: minus infinity for the two shifts, zero for the four sums. -/
private theorem pay1_eq : (k0_pay1 : FVec F S512x1 .f32) = ninf := by unfold k0_pay1; exact shapeCast_self _ _
private theorem pay2_eq : (k0_pay2 : FVec F S512x1 .f32) = zero := by unfold k0_pay2; exact shapeCast_self _ _
private theorem pay3_eq : (k0_pay3 : FVec F S512x1 .f32) = ninf := by unfold k0_pay3; exact shapeCast_self _ _
private theorem pay4_eq : (k0_pay4 : FVec F S512x1 .f32) = zero := by unfold k0_pay4; exact shapeCast_self _ _
private theorem pay5_eq : (k0_pay5 : FVec F S512x1 .f32) = zero := by unfold k0_pay5; exact shapeCast_self _ _
private theorem pay6_eq : (k0_pay6 : FVec F S512x1 .f32) = zero := by unfold k0_pay6; exact shapeCast_self _ _

/-- The first column block leaves the student shift stepped from the initial state. -/
theorem sout_A_0 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : cond0_0 i) (hc1 : ¬cond0_1 i) (x0 : Vec F S512x768 .f32) (x1 : Vec F S256x768 .f32) (x2 : Vec F S512x768 .f32) (x3 : Vec F S256x768 .f32) :
    sout0_A_0 c i a2 h2 a3 h3 a4 h4 a5 h5 a6 h6 a7 h7 a8 h8 a9 h9 a10 h10 a11 h11 a12 h12 a13 h13 hc0 hc1 x0 x1 x2 x3 = stepMs x0 x1 ninf := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 x0 x1 x2 x3)]
  unfold kernelRun0_A
  dsimp only
  sl_unfold_words
  rw [View.canon_cons_unit_zero (S := S512x1) hz]
  simp only [View.readAt_eq_ld, h2.read_unread, h3.read_unread, h4.read_unread, h5.read_unread, View.readCov_unit_zero (S := S512x1) _ hz, View.ld_unit_zero (S := S512x768) hz, View.ld_unit_zero (S := S256x768) hz, View.ld_unit_zero (S := S512x1) hz, shapeCast_self]
  unfold stepMs
  rw [pay24_id, pay1_eq]

/-- The first column block leaves the student sum of exponentials stepped from the initial state. -/
theorem sout_A_1 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : cond0_0 i) (hc1 : ¬cond0_1 i) (x0 : Vec F S512x768 .f32) (x1 : Vec F S256x768 .f32) (x2 : Vec F S512x768 .f32) (x3 : Vec F S256x768 .f32) :
    sout0_A_1 c i a2 h2 a3 h3 a4 h4 a5 h5 a6 h6 a7 h7 a8 h8 a9 h9 a10 h10 a11 h11 a12 h12 a13 h13 hc0 hc1 x0 x1 x2 x3 = stepLs x0 x1 ninf zero := by
  unfold sout0_A_1
  rw [View.read_writes_eq_canon _ _ _ (scover0_A_1 c i a2 h2 a3 h3 a4 h4 a5 h5 a6 h6 a7 h7 a8 h8 a9 h9 a10 h10 a11 h11 a12 h12 a13 h13 hc0 hc1 x0 x1 x2 x3)]
  unfold kernelRun0_A
  dsimp only
  sl_unfold_words
  rw [View.canon_cons_unit_zero (S := S512x1) hz]
  simp only [View.readAt_eq_ld, h2.read_unread, h3.read_unread, h4.read_unread, h5.read_unread, View.readCov_unit_zero (S := S512x1) _ hz, View.ld_unit_zero (S := S512x768) hz, View.ld_unit_zero (S := S256x768) hz, View.ld_unit_zero (S := S512x1) hz, shapeCast_self]
  unfold stepLs
  rw [pay25_id, pay1_eq, pay2_eq]

/-- The first column block leaves the teacher shift stepped from the initial state. -/
theorem sout_A_2 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : cond0_0 i) (hc1 : ¬cond0_1 i) (x0 : Vec F S512x768 .f32) (x1 : Vec F S256x768 .f32) (x2 : Vec F S512x768 .f32) (x3 : Vec F S256x768 .f32) :
    sout0_A_2 c i a2 h2 a3 h3 a4 h4 a5 h5 a6 h6 a7 h7 a8 h8 a9 h9 a10 h10 a11 h11 a12 h12 a13 h13 hc0 hc1 x0 x1 x2 x3 = stepMt x2 x3 ninf := by
  unfold sout0_A_2
  rw [View.read_writes_eq_canon _ _ _ (scover0_A_2 c i a2 h2 a3 h3 a4 h4 a5 h5 a6 h6 a7 h7 a8 h8 a9 h9 a10 h10 a11 h11 a12 h12 a13 h13 hc0 hc1 x0 x1 x2 x3)]
  unfold kernelRun0_A
  dsimp only
  sl_unfold_words
  rw [View.canon_cons_unit_zero (S := S512x1) hz]
  simp only [View.readAt_eq_ld, h2.read_unread, h3.read_unread, h4.read_unread, h5.read_unread, View.readCov_unit_zero (S := S512x1) _ hz, View.ld_unit_zero (S := S512x768) hz, View.ld_unit_zero (S := S256x768) hz, View.ld_unit_zero (S := S512x1) hz, shapeCast_self]
  unfold stepMt
  rw [pay26_id, pay3_eq]

/-- The first column block leaves the teacher sum of exponentials stepped from the initial state. -/
theorem sout_A_3 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : cond0_0 i) (hc1 : ¬cond0_1 i) (x0 : Vec F S512x768 .f32) (x1 : Vec F S256x768 .f32) (x2 : Vec F S512x768 .f32) (x3 : Vec F S256x768 .f32) :
    sout0_A_3 c i a2 h2 a3 h3 a4 h4 a5 h5 a6 h6 a7 h7 a8 h8 a9 h9 a10 h10 a11 h11 a12 h12 a13 h13 hc0 hc1 x0 x1 x2 x3 = stepLt x2 x3 ninf zero := by
  unfold sout0_A_3
  rw [View.read_writes_eq_canon _ _ _ (scover0_A_3 c i a2 h2 a3 h3 a4 h4 a5 h5 a6 h6 a7 h7 a8 h8 a9 h9 a10 h10 a11 h11 a12 h12 a13 h13 hc0 hc1 x0 x1 x2 x3)]
  unfold kernelRun0_A
  dsimp only
  sl_unfold_words
  rw [View.canon_cons_unit_zero (S := S512x1) hz]
  simp only [View.readAt_eq_ld, h2.read_unread, h3.read_unread, h4.read_unread, h5.read_unread, View.readCov_unit_zero (S := S512x1) _ hz, View.ld_unit_zero (S := S512x768) hz, View.ld_unit_zero (S := S256x768) hz, View.ld_unit_zero (S := S512x1) hz, shapeCast_self]
  unfold stepLt stepMt logitsT
  rw [pay4_eq, pay3_eq]

/-- The first column block leaves the teacher-weighted sum stepped from the initial state. -/
theorem sout_A_4 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : cond0_0 i) (hc1 : ¬cond0_1 i) (x0 : Vec F S512x768 .f32) (x1 : Vec F S256x768 .f32) (x2 : Vec F S512x768 .f32) (x3 : Vec F S256x768 .f32) :
    sout0_A_4 c i a2 h2 a3 h3 a4 h4 a5 h5 a6 h6 a7 h7 a8 h8 a9 h9 a10 h10 a11 h11 a12 h12 a13 h13 hc0 hc1 x0 x1 x2 x3 = stepAst x0 x1 x2 x3 ninf zero := by
  unfold sout0_A_4
  rw [View.read_writes_eq_canon _ _ _ (scover0_A_4 c i a2 h2 a3 h3 a4 h4 a5 h5 a6 h6 a7 h7 a8 h8 a9 h9 a10 h10 a11 h11 a12 h12 a13 h13 hc0 hc1 x0 x1 x2 x3)]
  unfold kernelRun0_A
  dsimp only
  sl_unfold_words
  rw [View.canon_cons_unit_zero (S := S512x1) hz]
  simp only [View.readAt_eq_ld, h2.read_unread, h3.read_unread, h4.read_unread, h5.read_unread, View.readCov_unit_zero (S := S512x1) _ hz, View.ld_unit_zero (S := S512x768) hz, View.ld_unit_zero (S := S256x768) hz, View.ld_unit_zero (S := S512x1) hz, shapeCast_self]
  unfold stepAst stepMt logitsT
  rw [pay5_eq, pay3_eq]

/-- The first column block leaves the student-weighted sum stepped from the initial state. -/
theorem sout_A_5 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : cond0_0 i) (hc1 : ¬cond0_1 i) (x0 : Vec F S512x768 .f32) (x1 : Vec F S256x768 .f32) (x2 : Vec F S512x768 .f32) (x3 : Vec F S256x768 .f32) :
    sout0_A_5 c i a2 h2 a3 h3 a4 h4 a5 h5 a6 h6 a7 h7 a8 h8 a9 h9 a10 h10 a11 h11 a12 h12 a13 h13 hc0 hc1 x0 x1 x2 x3 = stepAts x0 x1 x2 x3 ninf zero := by
  unfold sout0_A_5
  rw [View.read_writes_eq_canon _ _ _ (scover0_A_5 c i a2 h2 a3 h3 a4 h4 a5 h5 a6 h6 a7 h7 a8 h8 a9 h9 a10 h10 a11 h11 a12 h12 a13 h13 hc0 hc1 x0 x1 x2 x3)]
  unfold kernelRun0_A
  dsimp only
  sl_unfold_words
  rw [View.canon_cons_unit_zero (S := S512x1) hz]
  simp only [View.readAt_eq_ld, h2.read_unread, h3.read_unread, h4.read_unread, h5.read_unread, View.readCov_unit_zero (S := S512x1) _ hz, View.ld_unit_zero (S := S512x768) hz, View.ld_unit_zero (S := S256x768) hz, View.ld_unit_zero (S := S512x1) hz, shapeCast_self]
  unfold stepAts
  rw [pay29_id, pay1_eq, pay6_eq]

/-- A middle column block leaves the student shift stepped from what the block before left. -/
theorem sout_B_0 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : ¬cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_B_0 c i a2 h2 a3 h3 a4 h4 a5 h5 a6 h6 a7 h7 a8 h8 a9 h9 a10 h10 a11 h11 a12 h12 a13 h13 hc0 hc1 x0 x1 x2 x3 xs0 xs1 xs2 xs3 xs4 xs5 = stepMs x0 x1 xs0 := by
  unfold sout0_B_0
  rw [View.read_writes_eq_canon _ _ _ (scover0_B_0 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x768) hz, View.ld_unit_zero (S := S256x768) hz, View.ld_unit_zero (S := S512x1) hz, shapeCast_self]
  unfold stepMs
  rw [pay24_id]

/-- A middle column block leaves the student sum of exponentials stepped from what the block before left. -/
theorem sout_B_1 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : ¬cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_B_1 c i a2 h2 a3 h3 a4 h4 a5 h5 a6 h6 a7 h7 a8 h8 a9 h9 a10 h10 a11 h11 a12 h12 a13 h13 hc0 hc1 x0 x1 x2 x3 xs0 xs1 xs2 xs3 xs4 xs5 = stepLs x0 x1 xs0 xs1 := by
  unfold sout0_B_1
  rw [View.read_writes_eq_canon _ _ _ (scover0_B_1 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x768) hz, View.ld_unit_zero (S := S256x768) hz, View.ld_unit_zero (S := S512x1) hz, shapeCast_self]
  unfold stepLs
  rw [pay25_id]

/-- A middle column block leaves the teacher shift stepped from what the block before left. -/
theorem sout_B_2 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : ¬cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_B_2 c i a2 h2 a3 h3 a4 h4 a5 h5 a6 h6 a7 h7 a8 h8 a9 h9 a10 h10 a11 h11 a12 h12 a13 h13 hc0 hc1 x0 x1 x2 x3 xs0 xs1 xs2 xs3 xs4 xs5 = stepMt x2 x3 xs2 := by
  unfold sout0_B_2
  rw [View.read_writes_eq_canon _ _ _ (scover0_B_2 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x768) hz, View.ld_unit_zero (S := S256x768) hz, View.ld_unit_zero (S := S512x1) hz, shapeCast_self]
  unfold stepMt
  rw [pay26_id]

/-- A middle column block leaves the teacher sum of exponentials stepped from what the block before left. -/
theorem sout_B_3 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : ¬cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_B_3 c i a2 h2 a3 h3 a4 h4 a5 h5 a6 h6 a7 h7 a8 h8 a9 h9 a10 h10 a11 h11 a12 h12 a13 h13 hc0 hc1 x0 x1 x2 x3 xs0 xs1 xs2 xs3 xs4 xs5 = stepLt x2 x3 xs2 xs3 := by
  unfold sout0_B_3
  rw [View.read_writes_eq_canon _ _ _ (scover0_B_3 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x768) hz, View.ld_unit_zero (S := S256x768) hz, View.ld_unit_zero (S := S512x1) hz, shapeCast_self]
  rfl

/-- A middle column block leaves the teacher-weighted sum stepped from what the block before left. -/
theorem sout_B_4 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : ¬cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_B_4 c i a2 h2 a3 h3 a4 h4 a5 h5 a6 h6 a7 h7 a8 h8 a9 h9 a10 h10 a11 h11 a12 h12 a13 h13 hc0 hc1 x0 x1 x2 x3 xs0 xs1 xs2 xs3 xs4 xs5 = stepAst x0 x1 x2 x3 xs2 xs4 := by
  unfold sout0_B_4
  rw [View.read_writes_eq_canon _ _ _ (scover0_B_4 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x768) hz, View.ld_unit_zero (S := S256x768) hz, View.ld_unit_zero (S := S512x1) hz, shapeCast_self]
  rfl

/-- A middle column block leaves the student-weighted sum stepped from what the block before left. -/
theorem sout_B_5 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : ¬cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_B_5 c i a2 h2 a3 h3 a4 h4 a5 h5 a6 h6 a7 h7 a8 h8 a9 h9 a10 h10 a11 h11 a12 h12 a13 h13 hc0 hc1 x0 x1 x2 x3 xs0 xs1 xs2 xs3 xs4 xs5 = stepAts x0 x1 x2 x3 xs0 xs5 := by
  unfold sout0_B_5
  rw [View.read_writes_eq_canon _ _ _ (scover0_B_5 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x768) hz, View.ld_unit_zero (S := S256x768) hz, View.ld_unit_zero (S := S512x1) hz, shapeCast_self]
  unfold stepAts
  rw [pay29_id]

/-- The last column block leaves the student shift stepped from what the block before left. -/
theorem sout_C_0 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_C_0 c i a2 h2 a3 h3 a4 h4 a5 h5 a6 h6 a7 h7 a8 h8 a9 h9 a10 h10 a11 h11 a12 h12 a13 h13 hc0 hc1 x0 x1 x2 x3 xs0 xs1 xs2 xs3 xs4 xs5 = stepMs x0 x1 xs0 := by
  unfold sout0_C_0
  rw [View.read_writes_eq_canon _ _ _ (scover0_C_0 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.readCov_unit_zero (S := S512x1) _ hz, View.ld_unit_zero (S := S512x768) hz, View.ld_unit_zero (S := S256x768) hz, View.ld_unit_zero (S := S512x1) hz, shapeCast_self]
  unfold stepMs
  rw [pay24_id]

/-- The last column block leaves the student sum of exponentials stepped from what the block before left. -/
theorem sout_C_1 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_C_1 c i a2 h2 a3 h3 a4 h4 a5 h5 a6 h6 a7 h7 a8 h8 a9 h9 a10 h10 a11 h11 a12 h12 a13 h13 hc0 hc1 x0 x1 x2 x3 xs0 xs1 xs2 xs3 xs4 xs5 = stepLs x0 x1 xs0 xs1 := by
  unfold sout0_C_1
  rw [View.read_writes_eq_canon _ _ _ (scover0_C_1 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.readCov_unit_zero (S := S512x1) _ hz, View.ld_unit_zero (S := S512x768) hz, View.ld_unit_zero (S := S256x768) hz, View.ld_unit_zero (S := S512x1) hz, shapeCast_self]
  unfold stepLs
  rw [pay25_id]

/-- The last column block leaves the teacher shift stepped from what the block before left. -/
theorem sout_C_2 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_C_2 c i a2 h2 a3 h3 a4 h4 a5 h5 a6 h6 a7 h7 a8 h8 a9 h9 a10 h10 a11 h11 a12 h12 a13 h13 hc0 hc1 x0 x1 x2 x3 xs0 xs1 xs2 xs3 xs4 xs5 = stepMt x2 x3 xs2 := by
  unfold sout0_C_2
  rw [View.read_writes_eq_canon _ _ _ (scover0_C_2 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.readCov_unit_zero (S := S512x1) _ hz, View.ld_unit_zero (S := S512x768) hz, View.ld_unit_zero (S := S256x768) hz, View.ld_unit_zero (S := S512x1) hz, shapeCast_self]
  unfold stepMt
  rw [pay26_id]

/-- The last column block leaves the teacher sum of exponentials stepped from what the block before left. -/
theorem sout_C_3 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_C_3 c i a2 h2 a3 h3 a4 h4 a5 h5 a6 h6 a7 h7 a8 h8 a9 h9 a10 h10 a11 h11 a12 h12 a13 h13 hc0 hc1 x0 x1 x2 x3 xs0 xs1 xs2 xs3 xs4 xs5 = stepLt x2 x3 xs2 xs3 := by
  unfold sout0_C_3
  rw [View.read_writes_eq_canon _ _ _ (scover0_C_3 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.readCov_unit_zero (S := S512x1) _ hz, View.ld_unit_zero (S := S512x768) hz, View.ld_unit_zero (S := S256x768) hz, View.ld_unit_zero (S := S512x1) hz, shapeCast_self]
  rfl

/-- The last column block leaves the teacher-weighted sum stepped from what the block before left. -/
theorem sout_C_4 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_C_4 c i a2 h2 a3 h3 a4 h4 a5 h5 a6 h6 a7 h7 a8 h8 a9 h9 a10 h10 a11 h11 a12 h12 a13 h13 hc0 hc1 x0 x1 x2 x3 xs0 xs1 xs2 xs3 xs4 xs5 = stepAst x0 x1 x2 x3 xs2 xs4 := by
  unfold sout0_C_4
  rw [View.read_writes_eq_canon _ _ _ (scover0_C_4 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.readCov_unit_zero (S := S512x1) _ hz, View.ld_unit_zero (S := S512x768) hz, View.ld_unit_zero (S := S256x768) hz, View.ld_unit_zero (S := S512x1) hz, shapeCast_self]
  rfl

/-- The last column block leaves the student-weighted sum stepped from what the block before left. -/
theorem sout_C_5 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : cond0_1 i) (x0 : Vec F S512x768 .f32) (x1 : Vec F S256x768 .f32) (x2 : Vec F S512x768 .f32) (x3 : Vec F S256x768 .f32) (xs0 xs1 xs2 xs3 xs4 xs5 : Vec F S512x1 .f32) :
    sout0_C_5 c i a2 h2 a3 h3 a4 h4 a5 h5 a6 h6 a7 h7 a8 h8 a9 h9 a10 h10 a11 h11 a12 h12 a13 h13 hc0 hc1 x0 x1 x2 x3 xs0 xs1 xs2 xs3 xs4 xs5 = stepAts x0 x1 x2 x3 xs0 xs5 := by
  unfold sout0_C_5
  rw [View.read_writes_eq_canon _ _ _ (scover0_C_5 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.readCov_unit_zero (S := S512x1) _ hz, View.ld_unit_zero (S := S512x768) hz, View.ld_unit_zero (S := S256x768) hz, View.ld_unit_zero (S := S512x1) hz, shapeCast_self]
  unfold stepAts
  rw [pay29_id]

/-- The last column block leaves in the first output the loss column of the state it has just stored. -/
theorem out_C_4 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : cond0_1 i) (x0 : Vec F S512x768 .f32) (x1 : Vec F S256x768 .f32) (x2 : Vec F S512x768 .f32) (x3 : Vec F S256x768 .f32) (xs0 xs1 xs2 xs3 xs4 xs5 : Vec F S512x1 .f32) :
    out0_C_4 c i a2 h2 a3 h3 a4 h4 a5 h5 a6 h6 a7 h7 a8 h8 a9 h9 a10 h10 a11 h11 a12 h12 a13 h13 hc0 hc1 x0 x1 x2 x3 xs0 xs1 xs2 xs3 xs4 xs5
      = lossS (stepMs x0 x1 xs0) (stepLs x0 x1 xs0 xs1) (stepMt x2 x3 xs2) (stepLt x2 x3 xs2 xs3) (stepAst x0 x1 x2 x3 xs2 xs4) := by
  unfold out0_C_4
  rw [View.read_writes_eq_canon _ _ _ (cover0_C_4 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.readCov_unit_zero (S := S512x1) _ hz, View.ld_unit_zero (S := S512x768) hz, View.ld_unit_zero (S := S256x768) hz, View.ld_unit_zero (S := S512x1) hz, shapeCast_self]
  unfold lossS stepMs stepLs stepLt stepAst stepMt logitsT
  rw [pay24_id, pay25_id, pay26_id]

/-- The last column block leaves in the second output the loss column of the state it has just stored. -/
theorem out_C_5 (c : Dev nD) (i : grid0.Coords) (a2 : Memref sig .tc .vmem S512x768 .f32) (h2 : a2.IsWhole) (a3 : Memref sig .tc .vmem S256x768 .f32) (h3 : a3.IsWhole) (a4 : Memref sig .tc .vmem S512x768 .f32) (h4 : a4.IsWhole) (a5 : Memref sig .tc .vmem S256x768 .f32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (hc0 : ¬cond0_0 i) (hc1 : cond0_1 i) (x0 : Vec F S512x768 .f32) (x1 : Vec F S256x768 .f32) (x2 : Vec F S512x768 .f32) (x3 : Vec F S256x768 .f32) (xs0 xs1 xs2 xs3 xs4 xs5 : Vec F S512x1 .f32) :
    out0_C_5 c i a2 h2 a3 h3 a4 h4 a5 h5 a6 h6 a7 h7 a8 h8 a9 h9 a10 h10 a11 h11 a12 h12 a13 h13 hc0 hc1 x0 x1 x2 x3 xs0 xs1 xs2 xs3 xs4 xs5
      = lossT (stepMs x0 x1 xs0) (stepLs x0 x1 xs0 xs1) (stepMt x2 x3 xs2) (stepLt x2 x3 xs2 xs3) (stepAts x0 x1 x2 x3 xs0 xs5) := by
  unfold out0_C_5
  rw [View.read_writes_eq_canon _ _ _ (cover0_C_5 c i a2 h2 a3 h3 a4 h4 a5 h5 a6 h6 a7 h7 a8 h8 a9 h9 a10 h10 a11 h11 a12 h12 a13 h13 hc0 hc1 x0 x1 x2 x3 xs0 xs1 xs2 xs3 xs4 xs5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.readCov_unit_zero (S := S512x1) _ hz, View.ld_unit_zero (S := S512x768) hz, View.ld_unit_zero (S := S256x768) hz, View.ld_unit_zero (S := S512x1) hz, shapeCast_self]
  unfold lossT stepMs stepLs stepLt stepAts stepMt logitsT
  rw [pay24_id, pay25_id, pay26_id, pay29_id]

end Cert.KernelIdeal.Pieces

end
-- ==== Proof.Spec.lean ====
/-
  The mathematics both programs compute, stated once over the extended reals and the reals.

  A row of one similarity matrix is the vector of cosine logits of one row x against 4096 rows y:
  (Σ_d (x_d / max(‖x‖, ε)) · (y_d / max(‖y‖, ε))) / T, the division by the temperature written as the
  product with 1/T. With finite inputs every logit is a real number.

  For two rows a, b of real logits the quantity of interest is KL(softmax b ‖ softmax a). Both the
  log-sum-exp and the weighted mean Σ_j softmax(b)_j (b_j - a_j) are invariant under subtracting any
  real shift from the logits, so a one-pass accumulation over column blocks that rescales its partial
  sums by exp(old shift - new shift) ends at the same value as the two-pass softmax, whatever real
  shifts either one used.

  This module holds the float literals' values, the definitions, and two small laws; the lemmas about a
  logit being real are in SpecLogit, those about a row's accumulation in SpecRow.
-/
import Idealize.ShloMosaic.PureOps.Ideal
import Idealize.ShloMosaic.PureOps.Ideal.Laws

noncomputable section

namespace Cert.KL

open Idealize.ShloMosaic Finset

/-! ## The float literals -/

/-- The f32 nearest to 1e-8 is 11258999 · 2^-50. -/
theorem ofBits_eps : Ideal.ofBits .f32 0x322BCC77#32 = ((11258999 / 1125899906842624 : ℝ) : EReal) := by
  simp [Ideal.ofBits, Ideal.ieee, -EReal.coe_mul]; norm_num

/-- The f32 nearest to 0.1 is 13421773 · 2^-27. -/
theorem ofBits_tenth : Ideal.ofBits .f32 0x3DCCCCCD#32 = ((13421773 / 134217728 : ℝ) : EReal) := by
  simp [Ideal.ofBits, Ideal.ieee, -EReal.coe_mul]; norm_num

/-- The pattern of minus infinity is the bottom element. -/
theorem ofBits_neg_inf : Ideal.ofBits .f32 0xFF800000#32 = ⊥ := by
  simp [Ideal.ofBits, Ideal.ieee]

/-- The zero pattern is zero. -/
theorem ofBits_zero : Ideal.ofBits .f32 0x00000000#32 = 0 := by
  simp [Ideal.ofBits, Ideal.ieee]

/-! ## Logits -/

/-- The reciprocal of the temperature: one over the f32 nearest to 0.1. -/
def invT : EReal := ((134217728 / 13421773 : ℝ) : EReal)

/-- A row's Euclidean norm, clamped below by ε. -/
def nrm (x : Fin 768 → EReal) : EReal := max (Ideal.sqrt (∑ d, x d * x d)) (Ideal.ofBits .f32 0x322BCC77#32)

/-- The cosine similarity of two rows over the temperature. -/
def logit (x y : Fin 768 → EReal) : EReal :=
  (∑ d, Ideal.div (x d) (nrm x) * Ideal.div (y d) (nrm y)) * invT

/-- Dividing by the f32 temperature is multiplying by its reciprocal. -/
theorem div_temperature (s : EReal) : Ideal.div s (Ideal.ofBits .f32 0x3DCCCCCD#32) = s * invT := by
  rw [ofBits_tenth, Ideal.div_coe (by norm_num : (13421773 / 134217728 : ℝ) ≠ 0)]
  unfold invT
  congr 2
  norm_num

/-- A finite sum of real numbers, embedded term by term, is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## One row, over the reals -/

/-- KL(softmax p ‖ softmax q) of two rows of 4096 logits, written without a shift. -/
def rowKL (p q : ℕ → ℝ) : ℝ :=
  (∑ j ∈ range 4096, Real.exp (p j) * (p j - q j)) / (∑ j ∈ range 4096, Real.exp (p j))
    + (Real.log (∑ j ∈ range 4096, Real.exp (q j)) - Real.log (∑ j ∈ range 4096, Real.exp (p j)))

/-- The state of the one-pass accumulation of a row after its first n columns: two real shifts μ, ν, the sums of
    exp(a_j - μ) and exp(b_j - ν), and those sums weighted by the logit differences. -/
def RowInv (a b : ℕ → ℝ) (n : ℕ) (ms ls mt lt ast ats : EReal) : Prop :=
  ∃ μ ν : ℝ, ms = (μ : EReal) ∧ mt = (ν : EReal) ∧
    ls = ((∑ j ∈ range n, Real.exp (a j - μ) : ℝ) : EReal) ∧
    lt = ((∑ j ∈ range n, Real.exp (b j - ν) : ℝ) : EReal) ∧
    ast = ((∑ j ∈ range n, Real.exp (b j - ν) * (0 - (a j - b j)) : ℝ) : EReal) ∧
    ats = ((∑ j ∈ range n, Real.exp (a j - μ) * (a j - b j) : ℝ) : EReal)

/-- The new shift: the old one against the maximum of a block of 256 logits. -/
def newM (m : EReal) (s : Fin 256 → EReal) : EReal :=
  max m ((univ : Finset (Fin 256)).fold max (Ideal.ofBits .f32 0xFF800000#32) s)

/-- The new sum of exponentials: the old one rescaled to the new shift, plus the block's. -/
def newL (m l : EReal) (s : Fin 256 → EReal) : EReal :=
  Ideal.exp (m - newM m s) * l + ∑ q, Ideal.exp (s q - newM m s)

/-- The new weighted sum: the old one rescaled to the new shift, plus the block's terms with weights w. -/
def newAcc (m acc : EReal) (s w : Fin 256 → EReal) : EReal :=
  Ideal.exp (m - newM m s) * acc + ∑ q, Ideal.exp (s q - newM m s) * w q

/-- The two-pass softmax of a row with a shift M: exp(s_j - M) over the sum (from zero) of those. -/
def softmaxAt (s : Fin 4096 → EReal) (M : EReal) (j : Fin 4096) : EReal :=
  Ideal.div (Ideal.exp (s j - M)) (Ideal.ofBits .f32 0x00000000#32 + ∑ k, Ideal.exp (s k - M))

end Cert.KL

end
-- ==== Proof.SpecLogit.lean ====
/-
  A cosine logit of two rows of real numbers is a real number: the sum of squares is a nonnegative real, its
  square root a real, the clamp against ε a positive real, each quotient a real, their products' sum a real,
  and the product with the reciprocal temperature a real. Likewise the maximum of finitely many reals.
-/
import proofs.«139187_j678604833494_1_alg».proof.Proof.Spec

noncomputable section

namespace Cert.KL

open Idealize.ShloMosaic Finset

/-! ## Real logits -/

/-- The clamped norm of a row of reals is a positive real. -/
private theorem nrm_coe (x : Fin 768 → EReal) (hx : ∀ d, ∃ r : ℝ, x d = (r : EReal)) :
    ∃ r : ℝ, nrm x = (r : EReal) ∧ 0 < r := by
  choose f hf using hx
  have hsum : (∑ d, x d * x d) = ((∑ d, f d * f d : ℝ) : EReal) := by
    rw [← coe_sum univ (fun d => f d * f d)]
    refine Finset.sum_congr rfl (fun d _ => ?_)
    rw [hf d, EReal.coe_mul]
  have hnn : ¬ (∑ d, f d * f d : ℝ) < 0 :=
    not_lt.mpr (Finset.sum_nonneg (fun d _ => mul_self_nonneg (f d)))
  refine ⟨max (Real.sqrt (∑ d, f d * f d)) (11258999 / 1125899906842624), ?_, ?_⟩
  · unfold nrm
    rw [hsum, Ideal.sqrt_coe, if_neg hnn, ofBits_eps]
    exact (EReal.coe_strictMono.monotone.map_max).symm
  · exact lt_max_of_lt_right (by norm_num)

/-- With real entries the logit equals an embedded real. -/
private theorem logit_real (x y : Fin 768 → EReal) (hx : ∀ d, ∃ r : ℝ, x d = (r : EReal))
    (hy : ∀ d, ∃ r : ℝ, y d = (r : EReal)) : ∃ r : ℝ, logit x y = (r : EReal) := by
  obtain ⟨nx, hnx, hnxpos⟩ := nrm_coe x hx
  obtain ⟨ny, hny, hnypos⟩ := nrm_coe y hy
  choose f hf using hx
  choose g hg using hy
  refine ⟨(∑ d, (f d * (1 / nx)) * (g d * (1 / ny))) * (134217728 / 13421773), ?_⟩
  unfold logit invT
  rw [hnx, hny, EReal.coe_mul, ← coe_sum univ (fun d => (f d * (1 / nx)) * (g d * (1 / ny)))]
  congr 1
  refine Finset.sum_congr rfl (fun d _ => ?_)
  rw [Ideal.div_coe hnxpos.ne', Ideal.div_coe hnypos.ne', hf d, hg d]
  simp only [EReal.coe_mul]

/-- With real entries the logit is a real number. -/
theorem logit_coe (x y : Fin 768 → EReal) (hx : ∀ d, ∃ r : ℝ, x d = (r : EReal)) (hy : ∀ d, ∃ r : ℝ, y d = (r : EReal)) :
    (((logit x y).toReal : ℝ) : EReal) = logit x y := by
  obtain ⟨r, hr⟩ := logit_real x y hx hy
  rw [hr, EReal.toReal_coe]

/-! ## The maximum of finitely many reals -/

/-- Folding max from minus infinity over a nonempty finite family of reals gives a real. -/
private theorem fold_max_real {ι : Type*} [DecidableEq ι] (s : ι → EReal)
    (hs : ∀ j, ∃ r : ℝ, s j = (r : EReal)) (t : Finset ι) :
    t.Nonempty → ∃ r : ℝ, t.fold max ⊥ s = (r : EReal) := by
  induction t using Finset.induction_on with
  | empty => intro h; exact absurd h Finset.not_nonempty_empty
  | insert a t ha ih =>
    intro _
    obtain ⟨ra, hra⟩ := hs a
    rw [Finset.fold_insert ha, hra]
    rcases t.eq_empty_or_nonempty with h | h
    · subst h
      rw [Finset.fold_empty]
      exact ⟨ra, max_eq_left bot_le⟩
    · obtain ⟨r, hr⟩ := ih h
      rw [hr]
      exact ⟨max ra r, (EReal.coe_strictMono.monotone.map_max).symm⟩

/-- The maximum of finitely many (at least one) real numbers, folded from minus infinity, is a real number. -/
theorem fold_max_coe {n : ℕ} (s : Fin (n + 1) → EReal) (hs : ∀ j, ∃ r : ℝ, s j = (r : EReal)) :
    ∃ r : ℝ, (univ : Finset (Fin (n + 1))).fold max (Ideal.ofBits .f32 0xFF800000#32) s = (r : EReal) := by
  rw [ofBits_neg_inf]
  exact fold_max_real s hs univ Finset.univ_nonempty

end Cert.KL

end
-- ==== Proof.SpecLoss.lean ====
/-
  The two results as functions of the four input arrays: the mean over all 4096 × 4096 pairs of the summands of a
  KL divergence is the sum over the rows of each row's divergence, over 2^24. A row of logits is indexed by a natural
  number (columns past 4095 wrap around; only the first 4096 are summed), which lets a block of 256 columns be a
  stretch of a range.
-/
import proofs.«139187_j678604833494_1_alg».proof.Proof.SpecLogit
import Idealize.ShloMosaic.Lib.ValueIdx

noncomputable section

namespace Cert.KL

open Idealize.ShloMosaic Idealize.ShloMosaic.ValueIdx Finset

/-- An input array: 4096 rows of 768 extended reals. -/
abbrev Arr : Type := (⟨2, ![4096, 768]⟩ : Shape).Idx → EReal

/-- Every entry of an input array is a real number. -/
def Real2 (X : Arr) : Prop := ∀ i, ∃ r : ℝ, X i = (r : EReal)

/-- Row i of an input array. -/
abbrev rowAt (X : Arr) (i : Fin 4096) : Fin 768 → EReal := fun d => X (ix2 i d)

/-- The column a natural number names. -/
def colIdx (j : ℕ) : Fin 4096 := ⟨j % 4096, Nat.mod_lt _ (by norm_num)⟩

/-- A column below 4096 names itself. -/
theorem colIdx_val (j : Fin 4096) : colIdx j.val = j := Fin.ext (Nat.mod_eq_of_lt j.isLt)

/-- A natural number below 4096 names the column with that number. -/
theorem colIdx_of_lt (j : ℕ) (h : j < 4096) : colIdx j = ⟨j, h⟩ := Fin.ext (Nat.mod_eq_of_lt h)

/-- Row i's real logits against the rows of Y. -/
def rowLogits (X Y : Arr) (i : Fin 4096) : ℕ → ℝ := fun j => (logit (rowAt X i) (rowAt Y (colIdx j))).toReal

/-- With real inputs the real logit, embedded, is the logit. -/
theorem rowLogits_coe (X Y : Arr) (hX : Real2 X) (hY : Real2 Y) (i : Fin 4096) (j : ℕ) :
    ((rowLogits X Y i j : ℝ) : EReal) = logit (rowAt X i) (rowAt Y (colIdx j)) :=
  logit_coe _ _ (fun d => hX _) (fun d => hY _)

/-- The mean over all pairs of the KL summands: the rows' divergences summed from zero, over 2^24. -/
def loss (P Q : Fin 4096 → ℕ → ℝ) : (⟨0, ![]⟩ : Shape).Idx → EReal := fun _ =>
  Ideal.div (Ideal.ofBits .f32 0x00000000#32 + ∑ i : Fin 4096, ((rowKL (P i) (Q i) : ℝ) : EReal))
    (Ideal.ofBits .f32 0x4B800000#32)

end Cert.KL

end
-- ==== Proof.KernelArrays.lean ====
/-
  The four input arrays as the kernel's region finds them, the rows of real logits they determine, the blocks the
  windows read at a grid point, and which rows and columns of the arrays those blocks are: at point n the row block is
  rows 512·(n / 16) … + 511 of the first and third arrays, the column block rows 256·(n mod 16) … + 255 of the second
  and fourth.
-/
import proofs.«139187_j678604833494_1_alg».proof.Proof.Gen.KernelIdeal.Frame.Runs
import proofs.«139187_j678604833494_1_alg».proof.Proof.SpecLoss
import Idealize.ShloMosaic.Lib.Pipeline.Value
import Idealize.ShloMosaic.Lib.ValueIdx

noncomputable section

namespace Cert.KernelIdeal.Arrays

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The four input arrays. -/
abbrev X0 (c : Dev nD) : Cert.KL.Arr := m ((c.tc : Thread nD τ).loc main_arg0)
/-- The second input array. -/
abbrev X1 (c : Dev nD) : Cert.KL.Arr := m ((c.tc : Thread nD τ).loc main_arg1)
/-- The third input array. -/
abbrev X2 (c : Dev nD) : Cert.KL.Arr := m ((c.tc : Thread nD τ).loc main_arg2)
/-- The fourth input array. -/
abbrev X3 (c : Dev nD) : Cert.KL.Arr := m ((c.tc : Thread nD τ).loc main_arg3)

/-- Row i's student logits (first array against the second) and teacher logits (third against the fourth). -/
abbrev A (c : Dev nD) (i : Fin 4096) : ℕ → ℝ := Cert.KL.rowLogits (X0 m c) (X1 m c) i
/-- Row i's teacher logits: row i of the third array against the rows of the fourth. -/
abbrev B (c : Dev nD) (i : Fin 4096) : ℕ → ℝ := Cert.KL.rowLogits (X2 m c) (X3 m c) i

/-- The grid has 8 · 16 = 128 points. -/
theorem N128 : cfg0.N = 128 := N_0

/-- The array row that row r of point n's row block is. -/
def rowIx (n : ℕ) (hn : n < cfg0.N) (r : Fin 512) : Fin 4096 :=
  ⟨512 * (n / 16) + r.val, by have h := lt_of_lt_of_eq hn N128; have := r.isLt; omega⟩

/-- The array row that row q of point n's column block is. -/
def colIx (n : ℕ) (hn : n < cfg0.N) (q : Fin 256) : Fin 4096 :=
  ⟨256 * (n % 16) + q.val, by have := q.isLt; omega⟩

/-- The blocks the four input windows hold at point n. -/
abbrev b0 (c : Dev nD) (n : ℕ) (hn : n < cfg0.N) : Vec Ideal S512x768 .f32 := iblk m c 0 ⟨n, hn⟩
/-- The block of 256 rows the second window holds at point n. -/
abbrev b1 (c : Dev nD) (n : ℕ) (hn : n < cfg0.N) : Vec Ideal S256x768 .f32 := iblk m c 1 ⟨n, hn⟩
/-- The block of 512 rows the third window holds at point n. -/
abbrev b2 (c : Dev nD) (n : ℕ) (hn : n < cfg0.N) : Vec Ideal S512x768 .f32 := iblk m c 2 ⟨n, hn⟩
/-- The block of 256 rows the fourth window holds at point n. -/
abbrev b3 (c : Dev nD) (n : ℕ) (hn : n < cfg0.N) : Vec Ideal S256x768 .f32 := iblk m c 3 ⟨n, hn⟩

/-- Where the four input windows' blocks sit at each grid point: the row block's index is the point's quotient by 16,
    the column block's its remainder, and every block spans all 768 columns. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0 :=
  (by decide +kernel : ∀ t : Fin grid0.N, _)

/-- Row r of the first window's block is row 512·(n/16) + r of the first array. -/
theorem b0_row (c : Dev nD) (n : ℕ) (hn : n < cfg0.N) (r : Fin 512) (d : Fin 768) :
    b0 m c n hn (ix2 r d) = X0 m c (ix2 (rowIx n hn r) d) := by
  obtain ⟨a0, a1, b0', b1', c0, c1, d0, d1⟩ := idx_facts ⟨n, hn⟩
  show iblk m c 0 ⟨n, hn⟩ (ix2 r d) = _
  unfold iblk
  rw [View.read_apply]
  show V m c main_arg0 _ = m ((c.tc : Thread nD τ).loc main_arg0) _
  rw [V_main_arg0]
  refine congrArg _ ?_
  funext a
  apply Fin.ext
  match a with
  | ⟨0, _⟩ =>
    show win0_0.index ⟨n, hn⟩ 0 * 512 + 1 * r.val = 512 * (n / 16) + r.val
    rw [a0]
    show n / 16 * 512 + 1 * r.val = 512 * (n / 16) + r.val
    omega
  | ⟨1, _⟩ =>
    show win0_0.index ⟨n, hn⟩ 1 * 768 + 1 * d.val = d.val
    rw [a1]
    omega

/-- Row q of the second window's block is row 256·(n mod 16) + q of the second array. -/
theorem b1_row (c : Dev nD) (n : ℕ) (hn : n < cfg0.N) (q : Fin 256) (d : Fin 768) :
    b1 m c n hn (ix2 q d) = X1 m c (ix2 (colIx n hn q) d) := by
  obtain ⟨a0, a1, b0', b1', c0, c1, d0, d1⟩ := idx_facts ⟨n, hn⟩
  show iblk m c 1 ⟨n, hn⟩ (ix2 q d) = _
  unfold iblk
  rw [View.read_apply]
  show V m c main_arg1 _ = m ((c.tc : Thread nD τ).loc main_arg1) _
  rw [V_main_arg1]
  refine congrArg _ ?_
  funext a
  apply Fin.ext
  match a with
  | ⟨0, _⟩ =>
    show win0_1.index ⟨n, hn⟩ 0 * 256 + 1 * q.val = 256 * (n % 16) + q.val
    rw [b0']
    show n % 16 * 256 + 1 * q.val = 256 * (n % 16) + q.val
    omega
  | ⟨1, _⟩ =>
    show win0_1.index ⟨n, hn⟩ 1 * 768 + 1 * d.val = d.val
    rw [b1']
    omega

/-- Row r of the third window's block is row 512·(n/16) + r of the third array. -/
theorem b2_row (c : Dev nD) (n : ℕ) (hn : n < cfg0.N) (r : Fin 512) (d : Fin 768) :
    b2 m c n hn (ix2 r d) = X2 m c (ix2 (rowIx n hn r) d) := by
  obtain ⟨a0, a1, b0', b1', c0, c1, d0, d1⟩ := idx_facts ⟨n, hn⟩
  show iblk m c 2 ⟨n, hn⟩ (ix2 r d) = _
  unfold iblk
  rw [View.read_apply]
  show V m c main_arg2 _ = m ((c.tc : Thread nD τ).loc main_arg2) _
  rw [V_main_arg2]
  refine congrArg _ ?_
  funext a
  apply Fin.ext
  match a with
  | ⟨0, _⟩ =>
    show win0_2.index ⟨n, hn⟩ 0 * 512 + 1 * r.val = 512 * (n / 16) + r.val
    rw [c0]
    show n / 16 * 512 + 1 * r.val = 512 * (n / 16) + r.val
    omega
  | ⟨1, _⟩ =>
    show win0_2.index ⟨n, hn⟩ 1 * 768 + 1 * d.val = d.val
    rw [c1]
    omega

/-- Row q of the fourth window's block is row 256·(n mod 16) + q of the fourth array. -/
theorem b3_row (c : Dev nD) (n : ℕ) (hn : n < cfg0.N) (q : Fin 256) (d : Fin 768) :
    b3 m c n hn (ix2 q d) = X3 m c (ix2 (colIx n hn q) d) := by
  obtain ⟨a0, a1, b0', b1', c0, c1, d0, d1⟩ := idx_facts ⟨n, hn⟩
  show iblk m c 3 ⟨n, hn⟩ (ix2 q d) = _
  unfold iblk
  rw [View.read_apply]
  show V m c main_arg3 _ = m ((c.tc : Thread nD τ).loc main_arg3) _
  rw [V_main_arg3]
  refine congrArg _ ?_
  funext a
  apply Fin.ext
  match a with
  | ⟨0, _⟩ =>
    show win0_3.index ⟨n, hn⟩ 0 * 256 + 1 * q.val = 256 * (n % 16) + q.val
    rw [d0]
    show n % 16 * 256 + 1 * q.val = 256 * (n % 16) + q.val
    omega
  | ⟨1, _⟩ =>
    show win0_3.index ⟨n, hn⟩ 1 * 768 + 1 * d.val = d.val
    rw [d1]
    omega

end Cert.KernelIdeal.Arrays

end
-- ==== Proof.KernelOuts.lean ====
/-
  What the eight buffers (two outputs, six carried columns) hold after each grid point, as step functions of the
  point's four input blocks and of what the point before left: the first column block steps the initial state, a
  middle one steps the state before it, the last one does the same and also fills the two outputs from the state it
  has just computed.
-/
import proofs.«139187_j678604833494_1_alg».proof.Proof.FrameKernelIdeal
import proofs.«139187_j678604833494_1_alg».proof.Proof.KernelPieces
import proofs.«139187_j678604833494_1_alg».proof.Proof.KernelArrays

noncomputable section

namespace Cert.KernelIdeal.Outs

open Idealize.ShloMosaic Idealize.ShloMosaic.TcCoe Idealize.SL.Sem
open Cert.KernelIdeal Cert.KernelIdeal.Gen Cert.KernelIdeal.Step Cert.KernelIdeal.Pieces Cert.KernelIdeal.Arrays

variable (m : (ℓ : Loc nD τ sig) → Buf (Elt Ideal) ℓ)

/-- What the point before point n + 1 left. -/
abbrev prev (c : Dev nD) (n : ℕ) (hn : n + 1 < cfg0.N) := outsAt0 m c n (Nat.lt_of_succ_lt hn)

/-- After a first column block: the initial state stepped once (the two outputs are not written there). -/
theorem outs_first (c : Dev nD) (n : ℕ) (hn : n < cfg0.N) (h0 : n % 16 = 0) :
    ∃ j4 j5 : Vec Ideal S512x1 .f32, outsAt0 m c n hn =
      (j4, j5, stepMs (b0 m c n hn) (b1 m c n hn) ninf, stepLs (b0 m c n hn) (b1 m c n hn) ninf zero, stepMt (b2 m c n hn) (b3 m c n hn) ninf, stepLt (b2 m c n hn) (b3 m c n hn) ninf zero,
        stepAst (b0 m c n hn) (b1 m c n hn) (b2 m c n hn) (b3 m c n hn) ninf zero, stepAts (b0 m c n hn) (b1 m c n hn) (b2 m c n hn) (b3 m c n hn) ninf zero) := by
  have h1 : ¬n % 16 = 15 := by omega
  have e := outsAt0_A m c ⟨n, hn⟩ h0 h1
  exact ⟨_, _, e.trans (congrArg₂ Prod.mk (rfl)
    (congrArg₂ Prod.mk (rfl)
    (congrArg₂ Prod.mk (sout_A_0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, hn⟩).mpr h0) (fun h => h1 ((hcond0_1 ⟨n, hn⟩).mp h)) (b0 m c n hn) (b1 m c n hn) (b2 m c n hn) (b3 m c n hn))
    (congrArg₂ Prod.mk (sout_A_1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, hn⟩).mpr h0) (fun h => h1 ((hcond0_1 ⟨n, hn⟩).mp h)) (b0 m c n hn) (b1 m c n hn) (b2 m c n hn) (b3 m c n hn))
    (congrArg₂ Prod.mk (sout_A_2 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, hn⟩).mpr h0) (fun h => h1 ((hcond0_1 ⟨n, hn⟩).mp h)) (b0 m c n hn) (b1 m c n hn) (b2 m c n hn) (b3 m c n hn))
    (congrArg₂ Prod.mk (sout_A_3 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, hn⟩).mpr h0) (fun h => h1 ((hcond0_1 ⟨n, hn⟩).mp h)) (b0 m c n hn) (b1 m c n hn) (b2 m c n hn) (b3 m c n hn))
    (congrArg₂ Prod.mk (sout_A_4 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, hn⟩).mpr h0) (fun h => h1 ((hcond0_1 ⟨n, hn⟩).mp h)) (b0 m c n hn) (b1 m c n hn) (b2 m c n hn) (b3 m c n hn))
    (sout_A_5 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n, hn⟩).mpr h0) (fun h => h1 ((hcond0_1 ⟨n, hn⟩).mp h)) (b0 m c n hn) (b1 m c n hn) (b2 m c n hn) (b3 m c n hn)))))))))⟩

/-- After a middle column block: the state before it stepped once (the two outputs are not written there). -/
theorem outs_mid (c : Dev nD) (n : ℕ) (hn : n + 1 < cfg0.N) (h0 : ¬(n + 1) % 16 = 0) (h1 : ¬(n + 1) % 16 = 15) :
    ∃ j4 j5 : Vec Ideal S512x1 .f32, outsAt0 m c (n + 1) hn =
      (j4, j5, stepMs (b0 m c (n + 1) hn) (b1 m c (n + 1) hn) (prev m c n hn).2.2.1, stepLs (b0 m c (n + 1) hn) (b1 m c (n + 1) hn) (prev m c n hn).2.2.1 (prev m c n hn).2.2.2.1, stepMt (b2 m c (n + 1) hn) (b3 m c (n + 1) hn) (prev m c n hn).2.2.2.2.1, stepLt (b2 m c (n + 1) hn) (b3 m c (n + 1) hn) (prev m c n hn).2.2.2.2.1 (prev m c n hn).2.2.2.2.2.1,
        stepAst (b0 m c (n + 1) hn) (b1 m c (n + 1) hn) (b2 m c (n + 1) hn) (b3 m c (n + 1) hn) (prev m c n hn).2.2.2.2.1 (prev m c n hn).2.2.2.2.2.2.1, stepAts (b0 m c (n + 1) hn) (b1 m c (n + 1) hn) (b2 m c (n + 1) hn) (b3 m c (n + 1) hn) (prev m c n hn).2.2.1 (prev m c n hn).2.2.2.2.2.2.2) := by
  have e : outsAt0 m c (n + 1) hn = _ := (dif_neg h0).trans (dif_neg h1)
  exact ⟨_, _, e.trans (congrArg₂ Prod.mk (rfl)
    (congrArg₂ Prod.mk (rfl)
    (congrArg₂ Prod.mk (sout_B_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (congrArg₂ Prod.mk (sout_B_1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (congrArg₂ Prod.mk (sout_B_2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (congrArg₂ Prod.mk (sout_B_3 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (congrArg₂ Prod.mk (sout_B_4 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (sout_B_5 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2))))))))⟩

/-- After a last column block: the state before it stepped once, and the two outputs computed from the new state. -/
theorem outs_last (c : Dev nD) (n : ℕ) (hn : n + 1 < cfg0.N) (h0 : ¬(n + 1) % 16 = 0) (h1 : (n + 1) % 16 = 15) :
    outsAt0 m c (n + 1) hn =
      (lossS (stepMs (b0 m c (n + 1) hn) (b1 m c (n + 1) hn) (prev m c n hn).2.2.1) (stepLs (b0 m c (n + 1) hn) (b1 m c (n + 1) hn) (prev m c n hn).2.2.1 (prev m c n hn).2.2.2.1)
          (stepMt (b2 m c (n + 1) hn) (b3 m c (n + 1) hn) (prev m c n hn).2.2.2.2.1) (stepLt (b2 m c (n + 1) hn) (b3 m c (n + 1) hn) (prev m c n hn).2.2.2.2.1 (prev m c n hn).2.2.2.2.2.1)
          (stepAst (b0 m c (n + 1) hn) (b1 m c (n + 1) hn) (b2 m c (n + 1) hn) (b3 m c (n + 1) hn) (prev m c n hn).2.2.2.2.1 (prev m c n hn).2.2.2.2.2.2.1),
       lossT (stepMs (b0 m c (n + 1) hn) (b1 m c (n + 1) hn) (prev m c n hn).2.2.1) (stepLs (b0 m c (n + 1) hn) (b1 m c (n + 1) hn) (prev m c n hn).2.2.1 (prev m c n hn).2.2.2.1)
          (stepMt (b2 m c (n + 1) hn) (b3 m c (n + 1) hn) (prev m c n hn).2.2.2.2.1) (stepLt (b2 m c (n + 1) hn) (b3 m c (n + 1) hn) (prev m c n hn).2.2.2.2.1 (prev m c n hn).2.2.2.2.2.1)
          (stepAts (b0 m c (n + 1) hn) (b1 m c (n + 1) hn) (b2 m c (n + 1) hn) (b3 m c (n + 1) hn) (prev m c n hn).2.2.1 (prev m c n hn).2.2.2.2.2.2.2),
       stepMs (b0 m c (n + 1) hn) (b1 m c (n + 1) hn) (prev m c n hn).2.2.1, stepLs (b0 m c (n + 1) hn) (b1 m c (n + 1) hn) (prev m c n hn).2.2.1 (prev m c n hn).2.2.2.1, stepMt (b2 m c (n + 1) hn) (b3 m c (n + 1) hn) (prev m c n hn).2.2.2.2.1, stepLt (b2 m c (n + 1) hn) (b3 m c (n + 1) hn) (prev m c n hn).2.2.2.2.1 (prev m c n hn).2.2.2.2.2.1,
        stepAst (b0 m c (n + 1) hn) (b1 m c (n + 1) hn) (b2 m c (n + 1) hn) (b3 m c (n + 1) hn) (prev m c n hn).2.2.2.2.1 (prev m c n hn).2.2.2.2.2.2.1, stepAts (b0 m c (n + 1) hn) (b1 m c (n + 1) hn) (b2 m c (n + 1) hn) (b3 m c (n + 1) hn) (prev m c n hn).2.2.1 (prev m c n hn).2.2.2.2.2.2.2) := by
  have e : outsAt0 m c (n + 1) hn = _ := (dif_neg h0).trans (dif_pos h1)
  refine e.trans ?_
  exact congrArg₂ Prod.mk (out_C_4 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (congrArg₂ Prod.mk (out_C_5 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (congrArg₂ Prod.mk (sout_C_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (congrArg₂ Prod.mk (sout_C_1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (congrArg₂ Prod.mk (sout_C_2 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (congrArg₂ Prod.mk (sout_C_3 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (congrArg₂ Prod.mk (sout_C_4 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)
    (sout_C_5 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (b0 m c (n + 1) hn) (b1 m c (n + 1) hn) (b2 m c (n + 1) hn) (b3 m c (n + 1) hn) (prev m c n hn).2.2.1 (prev m c n hn).2.2.2.1 (prev m c n hn).2.2.2.2.1 (prev m c n hn).2.2.2.2.2.1 (prev m c n hn).2.2.2.2.2.2.1 (prev m c n hn).2.2.2.2.2.2.2)))))))

end Cert.KernelIdeal.Outs

end
-- ==== Proof.KernelLogits.lean ====
/-
  The block of logits the body computes, read at one entry, at the ideal instance: entry (r, q) of the product of
  the normalised row block with the transposed normalised column block, times the named reciprocal temperature, is
  the cosine logit of row r of the row block against row q of the column block.
-/
import proofs.«139187_j678604833494_1_alg».proof.Proof.KernelStep
import proofs.«139187_j678604833494_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Values

open Idealize.ShloMosaic Idealize.ShloMosaic.ValueIdx
open Cert.KernelIdeal Cert.KernelIdeal.Gen Cert.KernelIdeal.Step

/-- Row r of a block of 768-vectors. -/
abbrev rowOf {n : ℕ} (x : (⟨2, ![n, 768]⟩ : Shape).Idx → EReal) (r : Fin n) : Fin 768 → EReal := fun d => x (ix2 r d)

/-- The student logits of row r against the column block. -/
abbrev sS (x0 : Vec Ideal S512x768 .f32) (x1 : Vec Ideal S256x768 .f32) (r : Fin 512) : Fin 256 → EReal :=
  fun q => Cert.KL.logit (rowOf x0 r) (rowOf x1 q)

/-! ## Layout operations read at an entry -/

/-- A vector recast as a column reads, at (r, 0), the vector at r. -/
private theorem shapeCast_col_apply {n : ℕ} {α : Type} (v : (⟨1, ![n]⟩ : Shape).Idx → α)
    (h : (⟨1, ![n]⟩ : Shape).ShapeCasts ⟨2, ![n, 1]⟩) (r : Fin n) (z : Fin 1) :
    shapeCast ⟨2, ![n, 1]⟩ v h (ix2 r z) = v (ix1 r) := by
  refine shapeCast_apply v h (ix2 r z) (ix1 r) ?_
  rw [Shape.rowMajor_val_one, Shape.rowMajor_val_two]
  show r.val = r.val * 1 + z.val
  have := z.isLt
  omega

/-- A column spread along rows reads, at (r, d), the column at (r, 0). -/
private theorem broadcastTo_col_apply {n m : ℕ} {α : Type} (v : (⟨2, ![n, 1]⟩ : Shape).Idx → α)
    (h : (⟨2, ![n, 1]⟩ : Shape).Broadcasts ⟨2, ![n, m]⟩) (r : Fin n) (d : Fin m) :
    broadcastTo ⟨2, ![n, m]⟩ v h (ix2 r d) = v (ix2 r 0) := by
  refine broadcastTo_apply v h (ix2 r d) (ix2 r 0) fun a => ?_
  match a with
  | ⟨0, _⟩ =>
    show r.val = if n = 1 then 0 else r.val
    have := r.isLt
    split <;> omega
  | ⟨1, _⟩ =>
    show (0 : Fin 1).val = if (1 : ℕ) = 1 then 0 else d.val
    rw [if_pos rfl]; rfl

/-- The sum along the rows of a matrix reads, at r, the sum of row r's entries. -/
private theorem rowSum_apply {n m : ℕ} {φ : FTy} (v : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction (F := Ideal) .add [1] ⟨1, ![n]⟩ v acc h hφ hacc (ix1 r) = ∑ d : Fin m, v (ix2 r d) := by
  refine (Ideal.multiReduction_add_single v acc h hφ hacc (ix1 r)).trans ?_
  show ∑ k : Fin m, v (h.lift (ix1 r) k) = ∑ d : Fin m, v (ix2 r d)
  refine Finset.sum_congr rfl fun d _ => congrArg v ?_
  funext a
  match a with
  | ⟨0, _⟩ => rfl
  | ⟨1, _⟩ => rfl

/-- The square root of a vector is entrywise. -/
private theorem sqrt_apply {s : Shape} {φ : FTy} (a : FVec Ideal s φ) (i : s.Idx) : sqrt a i = Ideal.sqrt (a i) := rfl
/-! ## The matrix product read at an entry -/

private theorem lhs_dot_0 (i : S512x256.Idx) (q : dot_S512x768_S768x256_S512x256_1_0_0_1_n_n.contr.Idx) :
    (dot_S512x768_S768x256_S512x256_1_0_0_1_n_n.lhsIdx i q 0).val = (i 0).val := by
  unfold DotDims.lhsIdx
  rw [dif_neg (show ¬(0 : Fin S512x768.rank) ∈ dot_S512x768_S768x256_S512x256_1_0_0_1_n_n.lhsBatch by decide),
    dif_pos (show (0 : Fin S512x768.rank) ∈ dot_S512x768_S768x256_S512x256_1_0_0_1_n_n.lhsNonContracting by decide)]
  rfl

private theorem lhs_dot_1 (i : S512x256.Idx) (q : dot_S512x768_S768x256_S512x256_1_0_0_1_n_n.contr.Idx) :
    (dot_S512x768_S768x256_S512x256_1_0_0_1_n_n.lhsIdx i q 1).val = (q ⟨0, by decide⟩).val :=
  dot_S512x768_S768x256_S512x256_1_0_0_1_n_n.lhsIdx_val_of_single rfl i q

private theorem rhs_dot_0 (i : S512x256.Idx) (q : dot_S512x768_S768x256_S512x256_1_0_0_1_n_n.contr.Idx) :
    (dot_S512x768_S768x256_S512x256_1_0_0_1_n_n.rhsIdx i q 0).val = (q ⟨0, by decide⟩).val :=
  dot_S512x768_S768x256_S512x256_1_0_0_1_n_n.rhsIdx_val_of_single rfl i q

private theorem rhs_dot_1 (i : S512x256.Idx) (q : dot_S512x768_S768x256_S512x256_1_0_0_1_n_n.contr.Idx) :
    (dot_S512x768_S768x256_S512x256_1_0_0_1_n_n.rhsIdx i q 1).val = (i 1).val := by
  unfold DotDims.rhsIdx
  rw [dif_neg (show ¬(1 : Fin S768x256.rank) ∈ dot_S512x768_S768x256_S512x256_1_0_0_1_n_n.rhsBatch by decide),
    dif_pos (show (1 : Fin S768x256.rank) ∈ dot_S512x768_S768x256_S512x256_1_0_0_1_n_n.rhsNonContracting by decide)]
  rfl

/-- Entry (r, q) of the product into the zero accumulator is the sum over the contracted axis of the products. -/
private theorem matmul_ix2_apply {φ₁ φ₂ : FTy} (lhs : FVec Ideal S512x768 φ₁) (rhs : FVec Ideal S768x256 φ₂)
    (r : Fin 512) (q : Fin 256) :
    FloatOps.matmul dot_S512x768_S768x256_S512x256_1_0_0_1_n_n none lhs rhs
        (constant (F := Ideal) S512x256 .f32 0x00000000#32) (ix2 r q)
      = ∑ d : Fin 768, lhs (ix2 r d) * rhs (ix2 d q) := by
  rw [Ideal.matmul_constant_zero_apply,
    ← Equiv.sum_comp (contrEquiv1 dot_S512x768_S768x256_S512x256_1_0_0_1_n_n 768 rfl rfl).symm]
  refine Finset.sum_congr rfl fun k _ => ?_
  have hk := contrEquiv1_symm_val dot_S512x768_S768x256_S512x256_1_0_0_1_n_n 768 rfl rfl k
  have el : dot_S512x768_S768x256_S512x256_1_0_0_1_n_n.lhsIdx (ix2 r q)
      ((contrEquiv1 dot_S512x768_S768x256_S512x256_1_0_0_1_n_n 768 rfl rfl).symm k) = ix2 r k :=
    funext fun a => Fin.ext (by
      match a with
      | ⟨0, _⟩ => exact lhs_dot_0 _ _
      | ⟨1, _⟩ => exact (lhs_dot_1 _ _).trans hk)
  have er : dot_S512x768_S768x256_S512x256_1_0_0_1_n_n.rhsIdx (ix2 r q)
      ((contrEquiv1 dot_S512x768_S768x256_S512x256_1_0_0_1_n_n 768 rfl rfl).symm k) = ix2 k q :=
    funext fun a => Fin.ext (by
      match a with
      | ⟨0, _⟩ => exact (rhs_dot_0 _ _).trans hk
      | ⟨1, _⟩ => exact rhs_dot_1 _ _)
  rw [el, er]

/-! ## The named constant -/

/-- The named reciprocal temperature is the rational it names. -/
theorem invT_named : Named.named (F := Ideal) Cert.KernelIdeal.κ "fold_c_134217728_13421773" (φ := .f32) 0x41200000#32 = Cert.KL.invT := by
  unfold Cert.KL.invT
  exact IdealRules.named_const.ideal_named_scalar _ _ _ _ rfl

/-! ## The normalised blocks read at an entry -/

/-- Entry (r, d) of the normalised row block: the entry over the row's clamped norm. -/
private theorem pay7_apply (x : Vec Ideal S512x768 .f32) (r : Fin 512) (d : Fin 768) :
    k0_pay7 (F := Ideal) x (ix2 r d) = Ideal.div (x (ix2 r d)) (Cert.KL.nrm (rowOf x r)) := by
  unfold k0_pay7
  dsimp only
  rw [truncf_apply, divf_apply, broadcastTo_col_apply, maximumf_apply, sqrt_apply, shapeCast_col_apply]
  exact congrArg (fun t => Ideal.div (x (ix2 r d)) (max (Ideal.sqrt t) (Ideal.ofBits .f32 0x322BCC77#32)))
    (rowSum_apply (mulf x x) _ _ _ _ r)

/-- Entry (q, d) of the normalised column block. -/
private theorem pay8_apply (x : Vec Ideal S256x768 .f32) (q : Fin 256) (d : Fin 768) :
    k0_pay8 (F := Ideal) x (ix2 q d) = Ideal.div (x (ix2 q d)) (Cert.KL.nrm (rowOf x q)) := by
  unfold k0_pay8
  dsimp only
  rw [truncf_apply, divf_apply, broadcastTo_col_apply, maximumf_apply, sqrt_apply, shapeCast_col_apply]
  exact congrArg (fun t => Ideal.div (x (ix2 q d)) (max (Ideal.sqrt t) (Ideal.ofBits .f32 0x322BCC77#32)))
    (rowSum_apply (mulf x x) _ _ _ _ q)

/-- Entry (r, d) of the teacher's normalised row block. -/
private theorem pay9_apply (x : Vec Ideal S512x768 .f32) (r : Fin 512) (d : Fin 768) :
    k0_pay9 (F := Ideal) x (ix2 r d) = Ideal.div (x (ix2 r d)) (Cert.KL.nrm (rowOf x r)) := by
  unfold k0_pay9
  dsimp only
  rw [truncf_apply, divf_apply, broadcastTo_col_apply, maximumf_apply, sqrt_apply, shapeCast_col_apply]
  exact congrArg (fun t => Ideal.div (x (ix2 r d)) (max (Ideal.sqrt t) (Ideal.ofBits .f32 0x322BCC77#32)))
    (rowSum_apply (mulf x x) _ _ _ _ r)

/-- The teacher's column norms before the clamp, at (q, 0): the root of the row's sum of squares. -/
private theorem pay10_apply (x : Vec Ideal S256x768 .f32) (q : Fin 256) :
    k0_pay10 (F := Ideal) x (ix2 q 0) = Ideal.sqrt (∑ d : Fin 768, x (ix2 q d) * x (ix2 q d)) := by
  unfold k0_pay10
  dsimp only
  rw [sqrt_apply, shapeCast_col_apply]
  exact congrArg Ideal.sqrt (rowSum_apply (mulf x x) _ _ _ _ q)

/-! ## The blocks of logits -/

/-- The block of student logits at (r, q). -/
theorem logitsS_apply (x0 : Vec Ideal S512x768 .f32) (x1 : Vec Ideal S256x768 .f32) (r : Fin 512) (q : Fin 256) :
    logitsS (F := Ideal) x0 x1 (ix2 r q) = Cert.KL.logit (rowOf x0 r) (rowOf x1 q) := by
  unfold logitsS k0_pay12
  dsimp only
  rw [mulf_apply, broadcast_apply, invT_named]
  unfold Cert.KL.logit
  refine congrArg (· * Cert.KL.invT) ?_
  refine (matmul_ix2_apply _ _ r q).trans ?_
  refine Finset.sum_congr rfl fun d _ => ?_
  rw [transpose_ix2_apply, pay7_apply, pay8_apply]

/-- The block of teacher logits at (r, q). -/
theorem logitsT_apply (x2 : Vec Ideal S512x768 .f32) (x3 : Vec Ideal S256x768 .f32) (r : Fin 512) (q : Fin 256) :
    logitsT (F := Ideal) x2 x3 (ix2 r q) = Cert.KL.logit (rowOf x2 r) (rowOf x3 q) := by
  unfold logitsT k0_pay13
  dsimp only
  rw [mulf_apply, broadcast_apply, invT_named]
  unfold Cert.KL.logit
  refine congrArg (· * Cert.KL.invT) ?_
  refine (matmul_ix2_apply _ _ r q).trans ?_
  refine Finset.sum_congr rfl fun d _ => ?_
  rw [transpose_ix2_apply, pay9_apply, truncf_apply, divf_apply, broadcastTo_col_apply, maximumf_apply, pay10_apply]
  rfl

end Cert.KernelIdeal.Values

end
-- ==== Proof.KernelValues.lean ====
/-
  The body's updates read at one row, at the ideal instance: the running maximum, the rescaled sums and the weighted
  sums of row r are the scalar updates of the specification applied to row r's 256 logits; the output columns are the
  final formulas of row r's state; the initial columns are minus infinity and zero.
-/
import proofs.«139187_j678604833494_1_alg».proof.Proof.KernelLogits
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Values

open Idealize.ShloMosaic Idealize.ShloMosaic.ValueIdx
open Cert.KernelIdeal Cert.KernelIdeal.Gen Cert.KernelIdeal.Step

/-! ## The layout operations and lane reductions of a block of 512 rows, read at a row -/

/-- A vector of 512 entries cast to a column: entry (r, 0) of the column is entry r of the vector. -/
private theorem col_cast {α : Type} (v : S512.Idx → α) (h : S512.ShapeCasts S512x1) (r : Fin 512) :
    shapeCast S512x1 v h (ix2 r (0 : Fin 1)) = v (ix1 r) := by
  refine shapeCast_apply v h (ix2 r 0) (ix1 r) ?_
  rw [Shape.rowMajor_val_one, Shape.rowMajor_val_two]
  show r.val = r.val * 1 + 0
  omega

/-- A column spread over 256 lanes: entry (r, q) is the column's entry (r, 0). -/
private theorem col_bcast {α : Type} (v : S512x1.Idx → α) (h : S512x1.Broadcasts S512x256) (r : Fin 512) (q : Fin 256) :
    broadcastTo S512x256 v h (ix2 r q) = v (ix2 r (0 : Fin 1)) := by
  refine broadcastTo_apply v h (ix2 r q) (ix2 r 0) fun a => ?_
  match a with
  | ⟨0, _⟩ => exact (if_neg (show ¬((512 : ℕ) = 1) by decide)).symm
  | ⟨1, _⟩ => exact (if_pos rfl).symm

/-- The index over row r with lane q on the reduced axis is (r, q). -/
private theorem lift_row (h : S512x256.Reduces [1] S512) (r : Fin 512) (q : Fin 256) :
    h.lift (ix1 r) q = ix2 r q := by
  funext a
  match a with
  | ⟨0, _⟩ => rfl
  | ⟨1, _⟩ => rfl

/-- The sum over the 256 lanes of row r. -/
private theorem lane_sum (v : FVec Ideal S512x256 .f32) (h : S512x256.Reduces [1] S512) (r : Fin 512) :
    multiReduction (F := Ideal) .add [1] S512 v 0x00000000#32 h (.inl rfl) rfl (ix1 r) = ∑ q : Fin 256, v (ix2 r q) := by
  refine (Ideal.multiReduction_add_single v 0x00000000#32 h (.inl rfl) rfl (ix1 r)).trans ?_
  show ∑ q : Fin 256, v (h.lift (ix1 r) q) = _
  exact Finset.sum_congr rfl fun q _ => congrArg v (lift_row h r q)

/-- The maximum over the 256 lanes of row r, from minus infinity. -/
private theorem lane_max (v : FVec Ideal S512x256 .f32) (h : S512x256.Reduces [1] S512) (r : Fin 512) :
    multiReduction (F := Ideal) .maximumf [1] S512 v 0xFF800000#32 h (.inl rfl) rfl (ix1 r)
      = (Finset.univ : Finset (Fin 256)).fold max (Ideal.ofBits .f32 0xFF800000#32) (fun q => v (ix2 r q)) := by
  refine (Ideal.multiReduction_maximumf_single v 0xFF800000#32 h (.inl rfl) rfl (ix1 r)).trans ?_
  show (Finset.univ : Finset (Fin 256)).fold max (Ideal.ofBits .f32 0xFF800000#32) (fun q => v (h.lift (ix1 r) q)) = _
  exact congrArg (fun f : Fin 256 → EReal => (Finset.univ : Finset (Fin 256)).fold max (Ideal.ofBits .f32 0xFF800000#32) f)
    (funext fun q => congrArg v (lift_row h r q))

/-! ## The three update formulas of a block, read at a row -/

/-- The running maximum: the old one against the row's lane maximum. -/
private theorem rowmax_apply (L : FVec Ideal S512x256 .f32) (m : FVec Ideal S512x1 .f32) (r : Fin 512) :
    maximumf m (shapeCast S512x1 (multiReduction (F := Ideal) .maximumf [1] S512 L 0xFF800000#32
        reduces_S512x256_S512 (.inl rfl) rfl) shapeCasts_S512_S512x1) (ix2 r (0 : Fin 1))
      = Cert.KL.newM (m (ix2 r 0)) (fun q => L (ix2 r q)) := by
  show max (m (ix2 r 0)) _ = max (m (ix2 r 0)) _
  exact congrArg (max (m (ix2 r 0))) ((col_cast _ _ r).trans (lane_max L _ r))

/-- The rescaled sum of exponentials: exp(m - M) · l plus the row's Σ_q exp(L_q - M). -/
private theorem rowsum_apply (L : FVec Ideal S512x256 .f32) (M m l : FVec Ideal S512x1 .f32) (r : Fin 512) :
    addf (mulf (exp (subf m M)) l) (shapeCast S512x1 (multiReduction (F := Ideal) .add [1] S512
        (exp (subf L (broadcastTo S512x256 M broadcasts_S512x1_S512x256))) 0x00000000#32
        reduces_S512x256_S512 (.inl rfl) rfl) shapeCasts_S512_S512x1) (ix2 r (0 : Fin 1))
      = Ideal.exp (m (ix2 r 0) - M (ix2 r 0)) * l (ix2 r 0) + ∑ q : Fin 256, Ideal.exp (L (ix2 r q) - M (ix2 r 0)) := by
  show Ideal.exp (m (ix2 r 0) - M (ix2 r 0)) * l (ix2 r 0) + _ = _
  refine congrArg (Ideal.exp (m (ix2 r 0) - M (ix2 r 0)) * l (ix2 r 0) + ·) ?_
  refine ((col_cast _ _ r).trans (lane_sum _ _ r)).trans ?_
  refine Finset.sum_congr rfl fun q _ => ?_
  show Ideal.exp (L (ix2 r q) - broadcastTo S512x256 M broadcasts_S512x1_S512x256 (ix2 r q)) = _
  rw [col_bcast]

/-- The rescaled weighted sum: exp(m - M) · a plus the row's Σ_q exp(L_q - M) · W_q. -/
private theorem rowwsum_apply (L W : FVec Ideal S512x256 .f32) (M m a : FVec Ideal S512x1 .f32) (r : Fin 512) :
    addf (mulf (exp (subf m M)) a) (shapeCast S512x1 (multiReduction (F := Ideal) .add [1] S512
        (mulf (exp (subf L (broadcastTo S512x256 M broadcasts_S512x1_S512x256))) W) 0x00000000#32
        reduces_S512x256_S512 (.inl rfl) rfl) shapeCasts_S512_S512x1) (ix2 r (0 : Fin 1))
      = Ideal.exp (m (ix2 r 0) - M (ix2 r 0)) * a (ix2 r 0)
          + ∑ q : Fin 256, Ideal.exp (L (ix2 r q) - M (ix2 r 0)) * W (ix2 r q) := by
  show Ideal.exp (m (ix2 r 0) - M (ix2 r 0)) * a (ix2 r 0) + _ = _
  refine congrArg (Ideal.exp (m (ix2 r 0) - M (ix2 r 0)) * a (ix2 r 0) + ·) ?_
  refine ((col_cast _ _ r).trans (lane_sum _ _ r)).trans ?_
  refine Finset.sum_congr rfl fun q _ => ?_
  show Ideal.exp (L (ix2 r q) - broadcastTo S512x256 M broadcasts_S512x1_S512x256 (ix2 r q)) * W (ix2 r q) = _
  rw [col_bcast]

/-- The block of student logits, row r, is the row of cosine logits. -/
private theorem rowS (x0 : Vec Ideal S512x768 .f32) (x1 : Vec Ideal S256x768 .f32) (r : Fin 512) :
    (fun q : Fin 256 => logitsS (F := Ideal) x0 x1 (ix2 r q)) = sS x0 x1 r :=
  funext fun q => logitsS_apply x0 x1 r q

/-- The block of teacher logits, row r, likewise. -/
private theorem rowT (x2 : Vec Ideal S512x768 .f32) (x3 : Vec Ideal S256x768 .f32) (r : Fin 512) :
    (fun q : Fin 256 => logitsT (F := Ideal) x2 x3 (ix2 r q)) = sS x2 x3 r :=
  funext fun q => logitsT_apply x2 x3 r q

/-! ## The body's updates at a row -/

/-- Row r of the new student shift: the old shift against the maximum of the row's 256 student logits. -/
theorem stepMs_apply (x0 : Vec Ideal S512x768 .f32) (x1 : Vec Ideal S256x768 .f32) (ms : Vec Ideal S512x1 .f32) (r : Fin 512) :
    stepMs (F := Ideal) x0 x1 ms (ix2 r 0) = Cert.KL.newM (ms (ix2 r 0)) (sS x0 x1 r) := by
  rw [← rowS x0 x1 r]
  exact rowmax_apply (logitsS (F := Ideal) x0 x1) ms r

/-- Row r of the new student sum of exponentials: the old sum rescaled to the new shift plus the row's 256 terms. -/
theorem stepLs_apply (x0 : Vec Ideal S512x768 .f32) (x1 : Vec Ideal S256x768 .f32) (ms ls : Vec Ideal S512x1 .f32) (r : Fin 512) :
    stepLs (F := Ideal) x0 x1 ms ls (ix2 r 0) = Cert.KL.newL (ms (ix2 r 0)) (ls (ix2 r 0)) (sS x0 x1 r) := by
  refine (rowsum_apply (logitsS (F := Ideal) x0 x1) (stepMs (F := Ideal) x0 x1 ms) ms ls r).trans ?_
  rw [stepMs_apply, ← rowS x0 x1 r]
  rfl

/-- Row r of the new teacher shift: the old shift against the maximum of the row's 256 teacher logits. -/
theorem stepMt_apply (x2 : Vec Ideal S512x768 .f32) (x3 : Vec Ideal S256x768 .f32) (mt : Vec Ideal S512x1 .f32) (r : Fin 512) :
    stepMt (F := Ideal) x2 x3 mt (ix2 r 0) = Cert.KL.newM (mt (ix2 r 0)) (sS x2 x3 r) := by
  rw [← rowT x2 x3 r]
  exact rowmax_apply (logitsT (F := Ideal) x2 x3) mt r

/-- Row r of the new teacher sum of exponentials: the old sum rescaled to the new shift plus the row's 256 terms. -/
theorem stepLt_apply (x2 : Vec Ideal S512x768 .f32) (x3 : Vec Ideal S256x768 .f32) (mt lt : Vec Ideal S512x1 .f32) (r : Fin 512) :
    stepLt (F := Ideal) x2 x3 mt lt (ix2 r 0) = Cert.KL.newL (mt (ix2 r 0)) (lt (ix2 r 0)) (sS x2 x3 r) := by
  unfold stepLt k0_pay27
  refine (congrFun (shapeCast_self _ shapeCasts_S512x1_S512x1) (ix2 r 0)).trans ?_
  refine (rowsum_apply (logitsT (F := Ideal) x2 x3) (stepMt (F := Ideal) x2 x3 mt) mt lt r).trans ?_
  rw [stepMt_apply, ← rowT x2 x3 r]
  rfl

/-- Row r of the new teacher-weighted sum: the old one rescaled to the new teacher shift plus the row's terms weighted by teacher logit minus student logit. -/
theorem stepAst_apply (x0 : Vec Ideal S512x768 .f32) (x1 : Vec Ideal S256x768 .f32) (x2 : Vec Ideal S512x768 .f32) (x3 : Vec Ideal S256x768 .f32)
    (mt ast : Vec Ideal S512x1 .f32) (r : Fin 512) :
    stepAst (F := Ideal) x0 x1 x2 x3 mt ast (ix2 r 0)
      = Cert.KL.newAcc (mt (ix2 r 0)) (ast (ix2 r 0)) (sS x2 x3 r) (fun q => 0 - (sS x0 x1 r q - sS x2 x3 r q)) := by
  unfold stepAst k0_pay28
  refine (congrFun (shapeCast_self _ shapeCasts_S512x1_S512x1) (ix2 r 0)).trans ?_
  refine (rowwsum_apply (logitsT (F := Ideal) x2 x3)
    (subf (broadcast S512x256 (Scalar.ofBits (F := Ideal) .f32 0x00000000#32))
      (subf (logitsS (F := Ideal) x0 x1) (logitsT (F := Ideal) x2 x3)))
    (stepMt (F := Ideal) x2 x3 mt) mt ast r).trans ?_
  rw [stepMt_apply]
  unfold Cert.KL.newAcc
  refine congrArg (_ + ·) (Finset.sum_congr rfl fun q _ => ?_)
  show Ideal.exp (logitsT (F := Ideal) x2 x3 (ix2 r q) - _)
      * (Ideal.ofBits .f32 0x00000000#32 - (logitsS (F := Ideal) x0 x1 (ix2 r q) - logitsT (F := Ideal) x2 x3 (ix2 r q))) = _
  rw [Cert.KL.ofBits_zero, logitsS_apply, logitsT_apply]

/-- Row r of the new student-weighted sum: the old one rescaled to the new student shift plus the row's terms weighted by student logit minus teacher logit. -/
theorem stepAts_apply (x0 : Vec Ideal S512x768 .f32) (x1 : Vec Ideal S256x768 .f32) (x2 : Vec Ideal S512x768 .f32) (x3 : Vec Ideal S256x768 .f32)
    (ms ats : Vec Ideal S512x1 .f32) (r : Fin 512) :
    stepAts (F := Ideal) x0 x1 x2 x3 ms ats (ix2 r 0)
      = Cert.KL.newAcc (ms (ix2 r 0)) (ats (ix2 r 0)) (sS x0 x1 r) (fun q => sS x0 x1 r q - sS x2 x3 r q) := by
  refine (rowwsum_apply (logitsS (F := Ideal) x0 x1)
    (subf (logitsS (F := Ideal) x0 x1) (logitsT (F := Ideal) x2 x3))
    (stepMs (F := Ideal) x0 x1 ms) ms ats r).trans ?_
  rw [stepMs_apply]
  unfold Cert.KL.newAcc
  refine congrArg (_ + ·) (Finset.sum_congr rfl fun q _ => ?_)
  show Ideal.exp (logitsS (F := Ideal) x0 x1 (ix2 r q) - _)
      * (logitsS (F := Ideal) x0 x1 (ix2 r q) - logitsT (F := Ideal) x2 x3 (ix2 r q)) = _
  rw [logitsS_apply, logitsT_apply]

/-- An entry of the first output column: the teacher-weighted mean plus the student's log-sum-exp minus the teacher's. -/
theorem lossS_apply (ms ls mt lt ast : Vec Ideal S512x1 .f32) (y : S512x1.Idx) :
    lossS (F := Ideal) ms ls mt lt ast y
      = Ideal.div (ast y) (lt y) + ((ms y + Ideal.log (ls y)) - (mt y + Ideal.log (lt y))) := by
  rfl

/-- An entry of the second output column: the student-weighted mean plus the teacher's log-sum-exp minus the student's. -/
theorem lossT_apply (ms ls mt lt ats : Vec Ideal S512x1 .f32) (y : S512x1.Idx) :
    lossT (F := Ideal) ms ls mt lt ats y
      = Ideal.div (ats y) (ls y) + ((mt y + Ideal.log (lt y)) - (ms y + Ideal.log (ls y))) := by
  rfl

/-- The initial columns at a row. -/
theorem ninf_apply (y : S512x1.Idx) : (broadcast S512x1 (Scalar.ofBits (F := Ideal) .f32 0xFF800000#32) : Vec Ideal S512x1 .f32) y = ⊥ := by
  exact Cert.KL.ofBits_neg_inf

/-- The initial sums at a row are zero. -/
theorem zero_apply (y : S512x1.Idx) : (broadcast S512x1 (Scalar.ofBits (F := Ideal) .f32 0x00000000#32) : Vec Ideal S512x1 .f32) y = 0 := by
  exact Cert.KL.ofBits_zero

end Cert.KernelIdeal.Values

end
-- ==== Proof.SpecRow.lean ====
/-
  One row's accumulation over column blocks, and the two-pass softmax of the same row, both end at
  KL(softmax p ‖ softmax q): rescaling a partial sum Σ_j exp(a_j - μ) w_j by exp(μ - μ') gives
  Σ_j exp(a_j - μ') w_j, so after all columns the state holds the sums at SOME real shifts, and
  (Σ_j exp(b_j - ν)(b_j - a_j)) / (Σ_j exp(b_j - ν)) and ν + log Σ_j exp(b_j - ν) do not depend on ν.
-/
import proofs.«139187_j678604833494_1_alg».proof.Proof.Spec

noncomputable section

namespace Cert.KL

open Idealize.ShloMosaic Finset

/-! ## A maximum of finitely many reals is a real -/

/-- The maximum, from minus infinity, of a nonempty finite family of reals is a real. -/
private theorem fold_max_real (f : Fin 256 → ℝ) :
    ∃ r : ℝ, (univ : Finset (Fin 256)).fold max (⊥ : EReal) (fun q => ((f q : ℝ) : EReal)) = (r : EReal) := by
  have h1 : (univ : Finset (Fin 256)).fold max (⊥ : EReal) (fun q => ((f q : ℝ) : EReal)) < ⊤ :=
    (Finset.fold_max_lt _).2 ⟨bot_lt_top, fun x _ => EReal.coe_lt_top _⟩
  have h2 : (⊥ : EReal) < (univ : Finset (Fin 256)).fold max (⊥ : EReal) (fun q => ((f q : ℝ) : EReal)) :=
    (Finset.lt_fold_max _).2 (Or.inr ⟨0, mem_univ _, EReal.bot_lt_coe _⟩)
  exact ⟨_, (EReal.coe_toReal (ne_of_lt h1) (ne_of_gt h2)).symm⟩

/-- From the shift minus infinity the new shift is a real. -/
private theorem newM_bot_real (s : Fin 256 → EReal) (f : Fin 256 → ℝ) (hs : ∀ q, s q = ((f q : ℝ) : EReal)) :
    ∃ r : ℝ, newM ⊥ s = (r : EReal) := by
  obtain rfl : s = fun q => ((f q : ℝ) : EReal) := funext hs
  obtain ⟨r, hr⟩ := fold_max_real f
  exact ⟨r, by unfold newM; rw [ofBits_neg_inf, hr]; exact max_eq_right bot_le⟩

/-- From a real shift the new shift is a real. -/
private theorem newM_coe_real (μ : ℝ) (s : Fin 256 → EReal) (f : Fin 256 → ℝ) (hs : ∀ q, s q = ((f q : ℝ) : EReal)) :
    ∃ r : ℝ, newM (μ : EReal) s = (r : EReal) := by
  obtain rfl : s = fun q => ((f q : ℝ) : EReal) := funext hs
  obtain ⟨r, hr⟩ := fold_max_real f
  exact ⟨max μ r, by unfold newM; rw [ofBits_neg_inf, hr]; exact (EReal.coe_strictMono.monotone.map_max).symm⟩

/-! ## Block sums and rescaling, over the reals -/

/-- A block's weighted sum of exponentials is the embedded real sum. -/
private theorem block_sum_w (c w : ℕ → ℝ) (n : ℕ) (μ' : ℝ) (s wv : Fin 256 → EReal)
    (hs : ∀ q : Fin 256, s q = ((c (n + q.val) : ℝ) : EReal))
    (hw : ∀ q : Fin 256, wv q = ((w (n + q.val) : ℝ) : EReal)) :
    ∑ q : Fin 256, Ideal.exp (s q - (μ' : EReal)) * wv q
      = ((∑ q ∈ range 256, Real.exp (c (n + q) - μ') * w (n + q) : ℝ) : EReal) := by
  rw [← Fin.sum_univ_eq_sum_range (fun q => Real.exp (c (n + q) - μ') * w (n + q)) 256, ← coe_sum]
  refine Finset.sum_congr rfl fun q _ => ?_
  rw [hs q, hw q, ← EReal.coe_sub, Ideal.exp_coe, ← EReal.coe_mul]

/-- A block's sum of exponentials is the embedded real sum. -/
private theorem block_sum_1 (c : ℕ → ℝ) (n : ℕ) (μ' : ℝ) (s : Fin 256 → EReal)
    (hs : ∀ q : Fin 256, s q = ((c (n + q.val) : ℝ) : EReal)) :
    ∑ q : Fin 256, Ideal.exp (s q - (μ' : EReal))
      = ((∑ q ∈ range 256, Real.exp (c (n + q) - μ') : ℝ) : EReal) := by
  rw [← Fin.sum_univ_eq_sum_range (fun q => Real.exp (c (n + q) - μ')) 256, ← coe_sum]
  refine Finset.sum_congr rfl fun q _ => ?_
  rw [hs q, ← EReal.coe_sub, Ideal.exp_coe]

/-- Rescaling a weighted partial sum from the shift μ to μ' and adding the next block at μ'. -/
private theorem rescale_w (c w : ℕ → ℝ) (n : ℕ) (μ μ' : ℝ) :
    Real.exp (μ - μ') * (∑ j ∈ range n, Real.exp (c j - μ) * w j)
        + ∑ q ∈ range 256, Real.exp (c (n + q) - μ') * w (n + q)
      = ∑ j ∈ range (n + 256), Real.exp (c j - μ') * w j := by
  rw [Finset.sum_range_add, Finset.mul_sum]
  congr 1
  refine Finset.sum_congr rfl fun j _ => ?_
  rw [← mul_assoc, ← Real.exp_add]
  congr 2
  ring

/-- Rescaling a partial sum of exponentials from the shift μ to μ' and adding the next block at μ'. -/
private theorem rescale_1 (c : ℕ → ℝ) (n : ℕ) (μ μ' : ℝ) :
    Real.exp (μ - μ') * (∑ j ∈ range n, Real.exp (c j - μ))
        + ∑ q ∈ range 256, Real.exp (c (n + q) - μ')
      = ∑ j ∈ range (n + 256), Real.exp (c j - μ') := by
  rw [Finset.sum_range_add, Finset.mul_sum]
  congr 1
  refine Finset.sum_congr rfl fun j _ => ?_
  rw [← Real.exp_add]
  congr 1
  ring

/-- The difference weights of a block are the embedded real differences. -/
private theorem w_neg (a b : ℕ → ℝ) (n : ℕ) (sa sb : Fin 256 → EReal)
    (hsa : ∀ q : Fin 256, sa q = ((a (n + q.val) : ℝ) : EReal))
    (hsb : ∀ q : Fin 256, sb q = ((b (n + q.val) : ℝ) : EReal)) (q : Fin 256) :
    (fun q => 0 - (sa q - sb q)) q = (((fun j => 0 - (a j - b j)) (n + q.val) : ℝ) : EReal) := by
  show 0 - (sa q - sb q) = ((0 - (a (n + q.val) - b (n + q.val)) : ℝ) : EReal)
  rw [hsa q, hsb q, EReal.coe_sub, EReal.coe_sub, EReal.coe_zero]

private theorem w_pos (a b : ℕ → ℝ) (n : ℕ) (sa sb : Fin 256 → EReal)
    (hsa : ∀ q : Fin 256, sa q = ((a (n + q.val) : ℝ) : EReal))
    (hsb : ∀ q : Fin 256, sb q = ((b (n + q.val) : ℝ) : EReal)) (q : Fin 256) :
    (fun q => sa q - sb q) q = (((fun j => a j - b j) (n + q.val) : ℝ) : EReal) := by
  show sa q - sb q = ((a (n + q.val) - b (n + q.val) : ℝ) : EReal)
  rw [hsa q, hsb q, EReal.coe_sub]

/-! ## One step of the accumulation -/

/-- From a real shift: the rescaled sum plus the block's is the sum over the longer range at the new shift. -/
private theorem newL_coe (c : ℕ → ℝ) (n : ℕ) (μ μ' : ℝ) (s : Fin 256 → EReal)
    (hs : ∀ q : Fin 256, s q = ((c (n + q.val) : ℝ) : EReal)) (hM : newM (μ : EReal) s = (μ' : EReal)) :
    newL (μ : EReal) ((∑ j ∈ range n, Real.exp (c j - μ) : ℝ) : EReal) s
      = ((∑ j ∈ range (n + 256), Real.exp (c j - μ') : ℝ) : EReal) := by
  unfold newL
  rw [hM, block_sum_1 c n μ' s hs, ← EReal.coe_sub, Ideal.exp_coe, ← EReal.coe_mul, ← EReal.coe_add,
    rescale_1]

private theorem newAcc_coe (c w : ℕ → ℝ) (n : ℕ) (μ μ' : ℝ) (s wv : Fin 256 → EReal)
    (hs : ∀ q : Fin 256, s q = ((c (n + q.val) : ℝ) : EReal))
    (hw : ∀ q : Fin 256, wv q = ((w (n + q.val) : ℝ) : EReal)) (hM : newM (μ : EReal) s = (μ' : EReal)) :
    newAcc (μ : EReal) ((∑ j ∈ range n, Real.exp (c j - μ) * w j : ℝ) : EReal) s wv
      = ((∑ j ∈ range (n + 256), Real.exp (c j - μ') * w j : ℝ) : EReal) := by
  unfold newAcc
  rw [hM, block_sum_w c w n μ' s wv hs hw, ← EReal.coe_sub, Ideal.exp_coe, ← EReal.coe_mul, ← EReal.coe_add,
    rescale_w]

/-- From the shift minus infinity and a zero sum: the block's sum alone. -/
private theorem newL_bot (c : ℕ → ℝ) (μ' : ℝ) (s : Fin 256 → EReal)
    (hs : ∀ q : Fin 256, s q = ((c (0 + q.val) : ℝ) : EReal)) (hM : newM ⊥ s = (μ' : EReal)) :
    newL ⊥ 0 s = ((∑ j ∈ range 256, Real.exp (c j - μ') : ℝ) : EReal) := by
  unfold newL
  rw [hM, block_sum_1 c 0 μ' s hs, EReal.bot_sub, Ideal.exp_bot, mul_zero, zero_add]
  simp only [Nat.zero_add]

private theorem newAcc_bot (c w : ℕ → ℝ) (μ' : ℝ) (s wv : Fin 256 → EReal)
    (hs : ∀ q : Fin 256, s q = ((c (0 + q.val) : ℝ) : EReal))
    (hw : ∀ q : Fin 256, wv q = ((w (0 + q.val) : ℝ) : EReal)) (hM : newM ⊥ s = (μ' : EReal)) :
    newAcc ⊥ 0 s wv = ((∑ j ∈ range 256, Real.exp (c j - μ') * w j : ℝ) : EReal) := by
  unfold newAcc
  rw [hM, block_sum_w c w 0 μ' s wv hs hw, EReal.bot_sub, Ideal.exp_bot, mul_zero, zero_add]
  simp only [Nat.zero_add]

/-- The first block, from the shift minus infinity and zero sums. -/
theorem rowInv_init (a b : ℕ → ℝ) (m0s l0s m0t l0t as0 at0 : EReal)
    (hms : m0s = ⊥) (hls : l0s = 0) (hmt : m0t = ⊥) (hlt : l0t = 0) (has : as0 = 0) (hat : at0 = 0)
    (sa sb : Fin 256 → EReal)
    (hsa : ∀ q : Fin 256, sa q = ((a q.val : ℝ) : EReal)) (hsb : ∀ q : Fin 256, sb q = ((b q.val : ℝ) : EReal)) :
    RowInv a b 256 (newM m0s sa) (newL m0s l0s sa) (newM m0t sb) (newL m0t l0t sb)
      (newAcc m0t as0 sb (fun q => 0 - (sa q - sb q))) (newAcc m0s at0 sa (fun q => sa q - sb q)) := by
  subst hms hls hmt hlt has hat
  have hsa' : ∀ q : Fin 256, sa q = ((a (0 + q.val) : ℝ) : EReal) := fun q => by rw [Nat.zero_add]; exact hsa q
  have hsb' : ∀ q : Fin 256, sb q = ((b (0 + q.val) : ℝ) : EReal) := fun q => by rw [Nat.zero_add]; exact hsb q
  obtain ⟨μ, hμ⟩ := newM_bot_real sa _ hsa
  obtain ⟨ν, hν⟩ := newM_bot_real sb _ hsb
  refine ⟨μ, ν, hμ, hν, newL_bot a μ sa hsa' hμ, newL_bot b ν sb hsb' hν, ?_, ?_⟩
  · exact newAcc_bot b (fun j => 0 - (a j - b j)) ν sb _ hsb' (w_neg a b 0 sa sb hsa' hsb') hν
  · exact newAcc_bot a (fun j => a j - b j) μ sa _ hsa' (w_pos a b 0 sa sb hsa' hsb') hμ

/-- A further block of 256 columns. -/
theorem rowInv_step (a b : ℕ → ℝ) (n : ℕ) (ms ls mt lt ast ats : EReal)
    (h : RowInv a b n ms ls mt lt ast ats) (sa sb : Fin 256 → EReal)
    (hsa : ∀ q : Fin 256, sa q = ((a (n + q.val) : ℝ) : EReal)) (hsb : ∀ q : Fin 256, sb q = ((b (n + q.val) : ℝ) : EReal)) :
    RowInv a b (n + 256) (newM ms sa) (newL ms ls sa) (newM mt sb) (newL mt lt sb)
      (newAcc mt ast sb (fun q => 0 - (sa q - sb q))) (newAcc ms ats sa (fun q => sa q - sb q)) := by
  obtain ⟨μ, ν, rfl, rfl, rfl, rfl, rfl, rfl⟩ := h
  obtain ⟨μ', hμ⟩ := newM_coe_real μ sa _ hsa
  obtain ⟨ν', hν⟩ := newM_coe_real ν sb _ hsb
  refine ⟨μ', ν', hμ, hν, newL_coe a n μ μ' sa hsa hμ, newL_coe b n ν ν' sb hsb hν, ?_, ?_⟩
  · exact newAcc_coe b (fun j => 0 - (a j - b j)) n ν ν' sb _ hsb (w_neg a b n sa sb hsa hsb) hν
  · exact newAcc_coe a (fun j => a j - b j) n μ μ' sa _ hsa (w_pos a b n sa sb hsa hsb) hμ

/-! ## Shift invariance, over the reals -/

private theorem sum_exp_pos (c : ℕ → ℝ) (μ : ℝ) : 0 < ∑ j ∈ range 4096, Real.exp (c j - μ) :=
  Finset.sum_pos (fun _ _ => Real.exp_pos _) ⟨0, by simp⟩

private theorem sum_exp_pos0 (c : ℕ → ℝ) : 0 < ∑ j ∈ range 4096, Real.exp (c j) :=
  Finset.sum_pos (fun _ _ => Real.exp_pos _) ⟨0, by simp⟩

private theorem sum_shift_1 (c : ℕ → ℝ) (μ : ℝ) :
    ∑ j ∈ range 4096, Real.exp (c j - μ) = (∑ j ∈ range 4096, Real.exp (c j)) * Real.exp (-μ) := by
  rw [Finset.sum_mul]
  exact Finset.sum_congr rfl fun j _ => by rw [← Real.exp_add, sub_eq_add_neg]

private theorem sum_shift_w (c w : ℕ → ℝ) (μ : ℝ) :
    ∑ j ∈ range 4096, Real.exp (c j - μ) * w j = (∑ j ∈ range 4096, Real.exp (c j) * w j) * Real.exp (-μ) := by
  rw [Finset.sum_mul]
  exact Finset.sum_congr rfl fun j _ => by rw [sub_eq_add_neg, Real.exp_add]; ring

/-- The log-sum-exp does not depend on the shift. -/
private theorem lse_shift (c : ℕ → ℝ) (μ : ℝ) :
    μ + Real.log (∑ j ∈ range 4096, Real.exp (c j - μ)) = Real.log (∑ j ∈ range 4096, Real.exp (c j)) := by
  rw [sum_shift_1, Real.log_mul (ne_of_gt (sum_exp_pos0 c)) (Real.exp_ne_zero _), Real.log_exp]
  ring

/-- The softmax-weighted mean does not depend on the shift. -/
private theorem mean_shift (c w : ℕ → ℝ) (μ : ℝ) :
    (∑ j ∈ range 4096, Real.exp (c j - μ) * w j) * (1 / ∑ j ∈ range 4096, Real.exp (c j - μ))
      = (∑ j ∈ range 4096, Real.exp (c j) * w j) / (∑ j ∈ range 4096, Real.exp (c j)) := by
  rw [sum_shift_1, sum_shift_w]
  have h1 := ne_of_gt (sum_exp_pos0 c)
  have h2 := Real.exp_ne_zero (-μ)
  field_simp

/-- The embedded shift plus the logarithm of the embedded sum is the embedded log-sum-exp. -/
private theorem lse_coe (c : ℕ → ℝ) (μ : ℝ) :
    (μ : EReal) + Ideal.log ((∑ j ∈ range 4096, Real.exp (c j - μ) : ℝ) : EReal)
      = ((Real.log (∑ j ∈ range 4096, Real.exp (c j)) : ℝ) : EReal) := by
  rw [Ideal.log_coe, if_neg (not_le.2 (sum_exp_pos c μ)), ← EReal.coe_add, lse_shift]

/-- The quotient of the embedded weighted sum by the embedded sum is the embedded softmax-weighted mean. -/
private theorem mean_coe (c w : ℕ → ℝ) (μ : ℝ) :
    Ideal.div ((∑ j ∈ range 4096, Real.exp (c j - μ) * w j : ℝ) : EReal)
        ((∑ j ∈ range 4096, Real.exp (c j - μ) : ℝ) : EReal)
      = (((∑ j ∈ range 4096, Real.exp (c j) * w j) / (∑ j ∈ range 4096, Real.exp (c j)) : ℝ) : EReal) := by
  rw [Ideal.div_coe (ne_of_gt (sum_exp_pos c μ)), ← EReal.coe_mul, mean_shift]

/-- After all 4096 columns the first output's entry is KL(softmax b ‖ softmax a). -/
theorem rowInv_final_s (a b : ℕ → ℝ) (ms ls mt lt ast ats : EReal) (h : RowInv a b 4096 ms ls mt lt ast ats) :
    Ideal.div ast lt + ((ms + Ideal.log ls) - (mt + Ideal.log lt)) = ((rowKL b a : ℝ) : EReal) := by
  obtain ⟨μ, ν, rfl, rfl, rfl, rfl, rfl, rfl⟩ := h
  rw [mean_coe b (fun j => 0 - (a j - b j)) ν, lse_coe a μ, lse_coe b ν, ← EReal.coe_sub, ← EReal.coe_add]
  unfold rowKL
  congr 3
  exact Finset.sum_congr rfl fun j _ => by ring

/-- After all 4096 columns the second output's entry is KL(softmax a ‖ softmax b). -/
theorem rowInv_final_t (a b : ℕ → ℝ) (ms ls mt lt ast ats : EReal) (h : RowInv a b 4096 ms ls mt lt ast ats) :
    Ideal.div ats ls + ((mt + Ideal.log lt) - (ms + Ideal.log ls)) = ((rowKL a b : ℝ) : EReal) := by
  obtain ⟨μ, ν, rfl, rfl, rfl, rfl, rfl, rfl⟩ := h
  rw [mean_coe a (fun j => a j - b j) μ, lse_coe a μ, lse_coe b ν, ← EReal.coe_sub, ← EReal.coe_add]
  unfold rowKL
  rfl

end Cert.KL

end
-- ==== Proof.KernelInv.lean ====
/-
  The carried columns are the one-pass accumulation of each row: after point n, row r of the block holds the state of
  array row 512·(n / 16) + r after its first 256·(n mod 16) + 256 columns. By induction on the point: a first column
  block starts the accumulation, every other one continues the row block before it. At a last column block all 4096
  columns are in, and the two outputs hold the row's two KL divergences.
-/
import proofs.«139187_j678604833494_1_alg».proof.Proof.KernelOuts
import proofs.«139187_j678604833494_1_alg».proof.Proof.KernelValues
import proofs.«139187_j678604833494_1_alg».proof.Proof.SpecRow

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Step Cert.KernelIdeal.Pieces Cert.KernelIdeal.Arrays
open Cert.KernelIdeal.Outs Cert.KernelIdeal.Values

variable (m : (ℓ : Loc nD τ sig) → Buf (Elt Ideal) ℓ)

/-- All four inputs hold real numbers only. -/
def RealIn (c : Dev nD) : Prop :=
  Cert.KL.Real2 (X0 m c) ∧ Cert.KL.Real2 (X1 m c) ∧ Cert.KL.Real2 (X2 m c) ∧ Cert.KL.Real2 (X3 m c)

/-- A student logit of the blocks at point n is the array rows' real logit. -/
theorem sS01 (c : Dev nD) (hR : RealIn m c) (n : ℕ) (hn : n < cfg0.N) (r : Fin 512) (q : Fin 256) :
    sS (b0 m c n hn) (b1 m c n hn) r q = ((A m c (rowIx n hn r) (256 * (n % 16) + q.val) : ℝ) : EReal) := by
  have hc : Cert.KL.colIdx (256 * (n % 16) + q.val) = colIx n hn q :=
    Fin.ext (Nat.mod_eq_of_lt (by have := q.isLt; omega))
  rw [Cert.KL.rowLogits_coe (X0 m c) (X1 m c) hR.1 hR.2.1, hc]
  show Cert.KL.logit (fun d => b0 m c n hn (ix2 r d)) (fun d => b1 m c n hn (ix2 q d)) = _
  simp only [b0_row, b1_row]

/-- A teacher logit of the blocks at point n is the array rows' real logit. -/
theorem sS23 (c : Dev nD) (hR : RealIn m c) (n : ℕ) (hn : n < cfg0.N) (r : Fin 512) (q : Fin 256) :
    sS (b2 m c n hn) (b3 m c n hn) r q = ((B m c (rowIx n hn r) (256 * (n % 16) + q.val) : ℝ) : EReal) := by
  have hc : Cert.KL.colIdx (256 * (n % 16) + q.val) = colIx n hn q :=
    Fin.ext (Nat.mod_eq_of_lt (by have := q.isLt; omega))
  rw [Cert.KL.rowLogits_coe (X2 m c) (X3 m c) hR.2.2.1 hR.2.2.2, hc]
  show Cert.KL.logit (fun d => b2 m c n hn (ix2 r d)) (fun d => b3 m c n hn (ix2 q d)) = _
  simp only [b2_row, b3_row]

/-- After a first column block: the accumulation of the block's 256 columns from the initial state. -/
theorem inv_first (c : Dev nD) (hR : RealIn m c) (n : ℕ) (hn : n < cfg0.N) (h0 : n % 16 = 0) (r : Fin 512) :
    Cert.KL.RowInv (A m c (rowIx n hn r)) (B m c (rowIx n hn r)) (256 * (n % 16) + 256)
      ((outsAt0 m c n hn).2.2.1 (ix2 r 0))
      ((outsAt0 m c n hn).2.2.2.1 (ix2 r 0))
      ((outsAt0 m c n hn).2.2.2.2.1 (ix2 r 0))
      ((outsAt0 m c n hn).2.2.2.2.2.1 (ix2 r 0))
      ((outsAt0 m c n hn).2.2.2.2.2.2.1 (ix2 r 0))
      ((outsAt0 m c n hn).2.2.2.2.2.2.2 (ix2 r 0)) := by
  obtain ⟨j4, j5, e⟩ := outs_first m c n hn h0
  rw [e]
  dsimp only
  rw [stepMs_apply, stepLs_apply, stepMt_apply, stepLt_apply, stepAst_apply, stepAts_apply]
  have hsa : ∀ q : Fin 256, sS (b0 m c n hn) (b1 m c n hn) r q = ((A m c (rowIx n hn r) q.val : ℝ) : EReal) := fun q => by
    rw [sS01 m c hR n hn r q, h0]; norm_num
  have hsb : ∀ q : Fin 256, sS (b2 m c n hn) (b3 m c n hn) r q = ((B m c (rowIx n hn r) q.val : ℝ) : EReal) := fun q => by
    rw [sS23 m c hR n hn r q, h0]; norm_num
  rw [show 256 * (n % 16) + 256 = 256 from by omega]
  exact Cert.KL.rowInv_init _ _ _ _ _ _ _ _ (ninf_apply _) (zero_apply _) (ninf_apply _) (zero_apply _) (zero_apply _) (zero_apply _) _ _ hsa hsb

/-- After any other column block: the accumulation continued from the point before, which is in the same row block. -/
theorem inv_step (c : Dev nD) (hR : RealIn m c) (n : ℕ) (hn : n + 1 < cfg0.N) (h0 : ¬(n + 1) % 16 = 0)
    (x4 x5 : Vec Ideal S512x1 .f32)
    (e : outsAt0 m c (n + 1) hn = (x4, x5,
        stepMs (b0 m c (n + 1) hn) (b1 m c (n + 1) hn) (prev m c n hn).2.2.1,
        stepLs (b0 m c (n + 1) hn) (b1 m c (n + 1) hn) (prev m c n hn).2.2.1 (prev m c n hn).2.2.2.1,
        stepMt (b2 m c (n + 1) hn) (b3 m c (n + 1) hn) (prev m c n hn).2.2.2.2.1,
        stepLt (b2 m c (n + 1) hn) (b3 m c (n + 1) hn) (prev m c n hn).2.2.2.2.1 (prev m c n hn).2.2.2.2.2.1,
        stepAst (b0 m c (n + 1) hn) (b1 m c (n + 1) hn) (b2 m c (n + 1) hn) (b3 m c (n + 1) hn) (prev m c n hn).2.2.2.2.1 (prev m c n hn).2.2.2.2.2.2.1,
        stepAts (b0 m c (n + 1) hn) (b1 m c (n + 1) hn) (b2 m c (n + 1) hn) (b3 m c (n + 1) hn) (prev m c n hn).2.2.1 (prev m c n hn).2.2.2.2.2.2.2))
    (r : Fin 512)
    (ih : Cert.KL.RowInv (A m c (rowIx n (Nat.lt_of_succ_lt hn) r)) (B m c (rowIx n (Nat.lt_of_succ_lt hn) r)) (256 * (n % 16) + 256)
      ((outsAt0 m c n (Nat.lt_of_succ_lt hn)).2.2.1 (ix2 r 0))
      ((outsAt0 m c n (Nat.lt_of_succ_lt hn)).2.2.2.1 (ix2 r 0))
      ((outsAt0 m c n (Nat.lt_of_succ_lt hn)).2.2.2.2.1 (ix2 r 0))
      ((outsAt0 m c n (Nat.lt_of_succ_lt hn)).2.2.2.2.2.1 (ix2 r 0))
      ((outsAt0 m c n (Nat.lt_of_succ_lt hn)).2.2.2.2.2.2.1 (ix2 r 0))
      ((outsAt0 m c n (Nat.lt_of_succ_lt hn)).2.2.2.2.2.2.2 (ix2 r 0))) :
    Cert.KL.RowInv (A m c (rowIx (n + 1) hn r)) (B m c (rowIx (n + 1) hn r)) (256 * ((n + 1) % 16) + 256)
      ((outsAt0 m c (n + 1) hn).2.2.1 (ix2 r 0))
      ((outsAt0 m c (n + 1) hn).2.2.2.1 (ix2 r 0))
      ((outsAt0 m c (n + 1) hn).2.2.2.2.1 (ix2 r 0))
      ((outsAt0 m c (n + 1) hn).2.2.2.2.2.1 (ix2 r 0))
      ((outsAt0 m c (n + 1) hn).2.2.2.2.2.2.1 (ix2 r 0))
      ((outsAt0 m c (n + 1) hn).2.2.2.2.2.2.2 (ix2 r 0)) := by
  rw [e]
  dsimp only
  rw [stepMs_apply, stepLs_apply, stepMt_apply, stepLt_apply, stepAst_apply, stepAts_apply]
  have hrow : rowIx (n + 1) hn r = rowIx n (Nat.lt_of_succ_lt hn) r := Fin.ext (by simp only [rowIx]; omega)
  have hcol : 256 * ((n + 1) % 16) = 256 * (n % 16) + 256 := by omega
  have hsa : ∀ q : Fin 256, sS (b0 m c (n + 1) hn) (b1 m c (n + 1) hn) r q
      = ((A m c (rowIx n (Nat.lt_of_succ_lt hn) r) (256 * (n % 16) + 256 + q.val) : ℝ) : EReal) := fun q => by
    rw [sS01 m c hR (n + 1) hn r q, hrow, hcol]
  have hsb : ∀ q : Fin 256, sS (b2 m c (n + 1) hn) (b3 m c (n + 1) hn) r q
      = ((B m c (rowIx n (Nat.lt_of_succ_lt hn) r) (256 * (n % 16) + 256 + q.val) : ℝ) : EReal) := fun q => by
    rw [sS23 m c hR (n + 1) hn r q, hrow, hcol]
  rw [hrow, hcol]
  exact Cert.KL.rowInv_step _ _ _ _ _ _ _ _ _ ih _ _ hsa hsb

/-- THE INVARIANT, at every point. -/
theorem inv (c : Dev nD) (hR : RealIn m c) : ∀ (n : ℕ) (hn : n < cfg0.N) (r : Fin 512),
    Cert.KL.RowInv (A m c (rowIx n hn r)) (B m c (rowIx n hn r)) (256 * (n % 16) + 256)
      ((outsAt0 m c n hn).2.2.1 (ix2 r 0))
      ((outsAt0 m c n hn).2.2.2.1 (ix2 r 0))
      ((outsAt0 m c n hn).2.2.2.2.1 (ix2 r 0))
      ((outsAt0 m c n hn).2.2.2.2.2.1 (ix2 r 0))
      ((outsAt0 m c n hn).2.2.2.2.2.2.1 (ix2 r 0))
      ((outsAt0 m c n hn).2.2.2.2.2.2.2 (ix2 r 0))
  | 0, hn, r => inv_first m c hR 0 hn (by norm_num) r
  | n + 1, hn, r => by
    by_cases h0 : (n + 1) % 16 = 0
    · exact inv_first m c hR (n + 1) hn h0 r
    · by_cases h1 : (n + 1) % 16 = 15
      · exact inv_step m c hR n hn h0 _ _ (outs_last m c n hn h0 h1) r (inv c hR n (Nat.lt_of_succ_lt hn) r)
      · obtain ⟨j4, j5, e⟩ := outs_mid m c n hn h0 h1
        exact inv_step m c hR n hn h0 j4 j5 e r (inv c hR n (Nat.lt_of_succ_lt hn) r)

/-- At a last column block the first output's row r is KL(softmax of the teacher row ‖ softmax of the student row). -/
theorem out4_last (c : Dev nD) (hR : RealIn m c) (n : ℕ) (hn : n + 1 < cfg0.N) (h1 : (n + 1) % 16 = 15) (r : Fin 512) :
    (outsAt0 m c (n + 1) hn).1 (ix2 r 0)
      = ((Cert.KL.rowKL (B m c (rowIx (n + 1) hn r)) (A m c (rowIx (n + 1) hn r)) : ℝ) : EReal) := by
  have h0 : ¬(n + 1) % 16 = 0 := by omega
  have hI := inv m c hR (n + 1) hn r
  rw [show 256 * ((n + 1) % 16) + 256 = 4096 from by omega] at hI
  have e := outs_last m c n hn h0 h1
  rw [e] at hI ⊢
  dsimp only at hI ⊢
  rw [lossS_apply]
  exact Cert.KL.rowInv_final_s _ _ _ _ _ _ _ _ hI

/-- At a last column block the second output's row r is KL(softmax of the student row ‖ softmax of the teacher row). -/
theorem out5_last (c : Dev nD) (hR : RealIn m c) (n : ℕ) (hn : n + 1 < cfg0.N) (h1 : (n + 1) % 16 = 15) (r : Fin 512) :
    (outsAt0 m c (n + 1) hn).2.1 (ix2 r 0)
      = ((Cert.KL.rowKL (A m c (rowIx (n + 1) hn r)) (B m c (rowIx (n + 1) hn r)) : ℝ) : EReal) := by
  have h0 : ¬(n + 1) % 16 = 0 := by omega
  have hI := inv m c hR (n + 1) hn r
  rw [show 256 * ((n + 1) % 16) + 256 = 4096 from by omega] at hI
  have e := outs_last m c n hn h0 h1
  rw [e] at hI ⊢
  dsimp only at hI ⊢
  rw [lossT_apply]
  exact Cert.KL.rowInv_final_t _ _ _ _ _ _ _ _ hI

/-- The same at a point given as a grid point: the written-back points are exactly those with t mod 16 = 15. -/
theorem out4_at (c : Dev nD) (hR : RealIn m c) (t : Fin cfg0.N) (h15 : t.val % 16 = 15) (r : Fin 512) :
    (outsAt0 m c t.val t.isLt).1 (ix2 r 0)
      = ((Cert.KL.rowKL (B m c (rowIx t.val t.isLt r)) (A m c (rowIx t.val t.isLt r)) : ℝ) : EReal) := by
  obtain ⟨n, hn⟩ := t
  cases n with
  | zero => exact absurd h15 (by norm_num)
  | succ n => exact out4_last m c hR n hn h15 r

/-- Likewise the second output at a grid point with t mod 16 = 15: KL(softmax of the student row ‖ softmax of the teacher row). -/
theorem out5_at (c : Dev nD) (hR : RealIn m c) (t : Fin cfg0.N) (h15 : t.val % 16 = 15) (r : Fin 512) :
    (outsAt0 m c t.val t.isLt).2.1 (ix2 r 0)
      = ((Cert.KL.rowKL (A m c (rowIx t.val t.isLt r)) (B m c (rowIx t.val t.isLt r)) : ℝ) : EReal) := by
  obtain ⟨n, hn⟩ := t
  cases n with
  | zero => exact absurd h15 (by norm_num)
  | succ n => exact out5_last m c hR n hn h15 r

end Cert.KernelIdeal.Inv

end
-- ==== Proof.KernelFinal.lean ====
/-
  From the carried columns to the two results: the first output array is written back at the last column block of
  each row block, 512 rows at a time, and ends holding each row's KL divergence; the host then sums the 4096 rows from
  zero and divides by 2^24.
-/
import proofs.«139187_j678604833494_1_alg».proof.Proof.KernelInv
import Idealize.ShloMosaic.Lib.Pipeline.Value
import Idealize.ShloMosaic.Lib.StableHlo.Run
import Idealize.ShloMosaic.PureOps.Ideal.Laws

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Arrays Cert.KernelIdeal.Inv

variable (m : (ℓ : Loc nD τ sig) → Buf (Elt Ideal) ℓ) (ρ : Dev nD → PrngReg)

/-- What the first output array ends holding: row i's KL(softmax teacher ‖ softmax student). -/
abbrev G4 (c : Dev nD) : Buf (Elt Ideal) ((c.tc : Thread nD τ).loc main_v0_0) :=
  fun i => ((Cert.KL.rowKL (B m c (i 0)) (A m c (i 0)) : ℝ) : EReal)

/-- What the second output array ends holding: row i's KL(softmax student ‖ softmax teacher). -/
abbrev G5 (c : Dev nD) : Buf (Elt Ideal) ((c.tc : Thread nD τ).loc main_v0_1) :=
  fun i => ((Cert.KL.rowKL (A m c (i 0)) (B m c (i 0)) : ℝ) : EReal)

/-- The block index of the two output windows at a point, decided over the grid: row block t / 16, column block 0. -/
private theorem idx45 : ∀ t : Fin cfg0.N, (win0_4.index t (0 : Fin 2) = t.val / 16 ∧ win0_4.index t (1 : Fin 2) = 0)
    ∧ (win0_5.index t (0 : Fin 2) = t.val / 16 ∧ win0_5.index t (1 : Fin 2) = 0) :=
  (by decide +kernel : ∀ t : Fin grid0.N, (win0_4.index t (0 : Fin 2) = t.val / 16 ∧ win0_4.index t (1 : Fin 2) = 0)
    ∧ (win0_5.index t (0 : Fin 2) = t.val / 16 ∧ win0_5.index t (1 : Fin 2) = 0))

/-- What a written-back point writes into the first output array is its block of the rows' divergences. -/
private theorem flushed4 (c : Dev nD) (hR : RealIn m c) (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after0_4]
  have h15 := (flush0_4 t).mp hf
  obtain ⟨⟨e0, e1⟩, -⟩ := idx45 t
  funext y
  obtain ⟨r, z, rfl⟩ : ∃ (r : Fin 512) (z : Fin 1), y = ix2 r z := ⟨y 0, y 1, eq_ix2 y⟩
  obtain rfl : z = 0 := Subsingleton.elim z 0
  refine (out4_at m c hR t h15 r).trans ?_
  have hrow : (((cfg0.win 4).blk t).view.emb (ix2 r (0 : Fin 1))) 0 = rowIx t.val t.isLt r :=
    Fin.ext (by show win0_4.index t (0 : Fin 2) * 512 + 1 * r.val = 512 * (t.val / 16) + r.val; omega)
  show _ = G4 m c (((cfg0.win 4).blk t).view.emb (ix2 r (0 : Fin 1)))
  show _ = ((Cert.KL.rowKL (B m c ((((cfg0.win 4).blk t).view.emb (ix2 r (0 : Fin 1))) 0))
      (A m c ((((cfg0.win 4).blk t).view.emb (ix2 r (0 : Fin 1))) 0)) : ℝ) : EReal)
  rw [hrow]

/-- Every row of the first output array is in the block of the last column block of its row block. -/
private theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hN : 16 * ((i 0).val / 512) + 15 < cfg0.N := by rw [N128]; omega
  obtain ⟨⟨e0, e1⟩, -⟩ := idx45 ⟨16 * ((i 0).val / 512) + 15, hN⟩
  refine ⟨⟨16 * ((i 0).val / 512) + 15, hN⟩, (flush0_4 _).mpr (by show (16 * ((i 0).val / 512) + 15) % 16 = 15; omega), ?_⟩
  show i ∈ ((View.whole main_v0_0).slice (win0_4.rect ⟨16 * ((i 0).val / 512) + 15, hN⟩)).set
  rw [View.set_slice_whole, Rect.mem_set_unit]
  have e0' : win0_4.index ⟨16 * ((i 0).val / 512) + 15, hN⟩ (0 : Fin 2) = (16 * ((i 0).val / 512) + 15) / 16 := e0
  intro a
  match a with
  | ⟨0, _⟩ =>
    show win0_4.index ⟨16 * ((i 0).val / 512) + 15, hN⟩ (0 : Fin 2) * 512 ≤ (i 0).val
      ∧ (i 0).val < win0_4.index ⟨16 * ((i 0).val / 512) + 15, hN⟩ (0 : Fin 2) * 512 + 512
    omega
  | ⟨1, _⟩ =>
    show win0_4.index ⟨16 * ((i 0).val / 512) + 15, hN⟩ (1 : Fin 2) * 1 ≤ (i 1).val
      ∧ (i 1).val < win0_4.index ⟨16 * ((i 0).val / 512) + 15, hN⟩ (1 : Fin 2) * 1 + 1
    omega

theorem final4 (c : Dev nD) (hR : RealIn m c) : (dats m 0 c).arrAt 4 cfg0.N = G4 m c :=
  (dats m 0 c).arrAt_eq_of_cover 4 (G4 m c) (flushed4 m c hR) (cover4 c)

/-- What a written-back point writes into the second output array is its block of the rows' divergences. -/
private theorem flushed5 (c : Dev nD) (hR : RealIn m c) (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after0_5]
  have h15 := (flush0_5 t).mp hf
  obtain ⟨-, e0, e1⟩ := idx45 t
  funext y
  obtain ⟨r, z, rfl⟩ : ∃ (r : Fin 512) (z : Fin 1), y = ix2 r z := ⟨y 0, y 1, eq_ix2 y⟩
  obtain rfl : z = 0 := Subsingleton.elim z 0
  refine (out5_at m c hR t h15 r).trans ?_
  have hrow : (((cfg0.win 5).blk t).view.emb (ix2 r (0 : Fin 1))) 0 = rowIx t.val t.isLt r :=
    Fin.ext (by show win0_5.index t (0 : Fin 2) * 512 + 1 * r.val = 512 * (t.val / 16) + r.val; omega)
  show _ = G5 m c (((cfg0.win 5).blk t).view.emb (ix2 r (0 : Fin 1)))
  show _ = ((Cert.KL.rowKL (A m c ((((cfg0.win 5).blk t).view.emb (ix2 r (0 : Fin 1))) 0))
      (B m c ((((cfg0.win 5).blk t).view.emb (ix2 r (0 : Fin 1))) 0)) : ℝ) : EReal)
  rw [hrow]

/-- Every row of the second output array is in the block of the last column block of its row block. -/
private theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have hN : 16 * ((i 0).val / 512) + 15 < cfg0.N := by rw [N128]; omega
  obtain ⟨-, e0, e1⟩ := idx45 ⟨16 * ((i 0).val / 512) + 15, hN⟩
  refine ⟨⟨16 * ((i 0).val / 512) + 15, hN⟩, (flush0_5 _).mpr (by show (16 * ((i 0).val / 512) + 15) % 16 = 15; omega), ?_⟩
  show i ∈ ((View.whole main_v0_1).slice (win0_5.rect ⟨16 * ((i 0).val / 512) + 15, hN⟩)).set
  rw [View.set_slice_whole, Rect.mem_set_unit]
  have e0' : win0_5.index ⟨16 * ((i 0).val / 512) + 15, hN⟩ (0 : Fin 2) = (16 * ((i 0).val / 512) + 15) / 16 := e0
  intro a
  match a with
  | ⟨0, _⟩ =>
    show win0_5.index ⟨16 * ((i 0).val / 512) + 15, hN⟩ (0 : Fin 2) * 512 ≤ (i 0).val
      ∧ (i 0).val < win0_5.index ⟨16 * ((i 0).val / 512) + 15, hN⟩ (0 : Fin 2) * 512 + 512
    omega
  | ⟨1, _⟩ =>
    show win0_5.index ⟨16 * ((i 0).val / 512) + 15, hN⟩ (1 : Fin 2) * 1 ≤ (i 1).val
      ∧ (i 1).val < win0_5.index ⟨16 * ((i 0).val / 512) + 15, hN⟩ (1 : Fin 2) * 1 + 1
    omega

theorem final5 (c : Dev nD) (hR : RealIn m c) : (dats m 0 c).arrAt 5 cfg0.N = G5 m c :=
  (dats m 0 c).arrAt_eq_of_cover 5 (G5 m c) (flushed5 m c hR) (cover5 c)

/-- The mean of a column of 4096 real numbers held in a [4096, 1] array: its sum from zero over 2^24. -/
private theorem mean_col (G : S4096x1.Idx → EReal) (g : Fin 4096 → ℝ) (hG : ∀ i : Fin 4096, G (ix2 i (0 : Fin 1)) = ((g i : ℝ) : EReal))
    (u : S_.Idx) :
    Host.divf (F := Ideal) (Host.reduceAdd (F := Ideal) G (constant (F := Ideal) S_ .f32 0x00000000#32) reducesTo_S4096x1_S_d0_1 h_S_)
        (constant (F := Ideal) S_ .f32 0x4B800000#32) u
      = Ideal.div (Ideal.ofBits .f32 0x00000000#32 + ∑ i : Fin 4096, ((g i : ℝ) : EReal)) (Ideal.ofBits .f32 0x4B800000#32) := by
  show Ideal.div (Ideal.hostReduceAdd reducesTo_S4096x1_S_d0_1 G (Ideal.ofBits .f32 0x00000000#32) u)
      (Ideal.ofBits .f32 0x4B800000#32) = _
  rw [Ideal.hostReduceAdd_total reducesTo_S4096x1_S_d0_1 (fun b => b.elim0)]
  refine congrArg (fun s => Ideal.div (Ideal.ofBits .f32 0x00000000#32 + s) (Ideal.ofBits .f32 0x4B800000#32)) ?_
  refine (sum_idx2 G).trans (Finset.sum_congr rfl fun i _ => ?_)
  rw [Fin.sum_univ_one]
  exact hG i

/-- The host lines after the region leave the first result at the mean of the first output array. -/
theorem tail_v2 (c : Dev nD) (hR : RealIn m c) :
    Pipeline.afterTail₀ cfgs (dats m) 0 (V0 m) [hostOps1] c main_v2 = Cert.KL.loss (B m c) (A m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v0_0)
      = G4 m c := (Pipeline.withArrays_arr spec0 launch0.win.arr_inj c _ _ 4).trans (final4 m c hR)
  rw [hw]
  funext u
  exact mean_col (G4 m c) (fun i => Cert.KL.rowKL (B m c i) (A m c i)) (fun i => rfl) u

theorem tail_v4 (c : Dev nD) (hR : RealIn m c) :
    Pipeline.afterTail₀ cfgs (dats m) 0 (V0 m) [hostOps1] c main_v4 = Cert.KL.loss (A m c) (B m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v0_1)
      = G5 m c := (Pipeline.withArrays_arr spec0 launch0.win.arr_inj c _ _ 5).trans (final5 m c hR)
  rw [hw]
  funext u
  exact mean_col (G5 m c) (fun i => Cert.KL.rowKL (A m c i) (B m c i)) (fun i => rfl) u

/-- The kernel's run, read: the two results at the two means, the four arguments unchanged. -/
theorem run (hR : ∀ c, RealIn m c) :
    θ_run defs (onTc (τ := τ) (main (F := Ideal))) ⟨m, fun _ => 0, ρ⟩ (fun r => ∀ c : Dev nD,
      r.2.mem ((c.tc : Thread nD τ).loc main_v2) = Cert.KL.loss (B m c) (A m c)
      ∧ r.2.mem ((c.tc : Thread nD τ).loc main_v4) = Cert.KL.loss (A m c) (B m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨((h c).2 main_v2 (by decide)).trans (tail_v2 m c (hR c)),
      ((h c).2 main_v4 (by decide)).trans (tail_v4 m c (hR c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.KernelIdeal.Final

end
-- ==== Proof.SpecRef.lean ====
/-
  The two-pass softmax of a row, with any real shifts: softmax(p)_j = exp(p_j - M) / Σ_k exp(p_k - M) does not
  depend on M, its logarithm is p_j - M - log Σ_k exp(p_k - M), and Σ_j softmax(p)_j = 1, so
  Σ_j softmax(p)_j (log softmax(p)_j - log softmax(q)_j) is the weighted mean of p_j - q_j plus the difference
  of the two log-sum-exps: KL(softmax p ‖ softmax q) in its shift-free form.
-/
import proofs.«139187_j678604833494_1_alg».proof.Proof.Spec

noncomputable section

namespace Cert.KL

open Idealize.ShloMosaic Finset

/-! ## Shift invariance over the reals -/

/-- A sum of 4096 exponentials is positive. -/
private theorem sum_exp_pos (p : ℕ → ℝ) : 0 < ∑ k ∈ range 4096, Real.exp (p k) :=
  Finset.sum_pos (fun k _ => Real.exp_pos _) ⟨0, by simp⟩

/-- Σ_k exp(p_k - m) = (Σ_k exp p_k) · exp(-m). -/
private theorem sum_exp_shift (p : ℕ → ℝ) (m : ℝ) :
    ∑ k ∈ range 4096, Real.exp (p k - m) = (∑ k ∈ range 4096, Real.exp (p k)) * Real.exp (-m) := by
  rw [Finset.sum_mul]
  refine Finset.sum_congr rfl fun k _ => ?_
  rw [sub_eq_add_neg, Real.exp_add]

/-- The shifted sum is positive too. -/
private theorem sum_exp_shift_pos (p : ℕ → ℝ) (m : ℝ) : 0 < ∑ k ∈ range 4096, Real.exp (p k - m) :=
  sum_exp_pos fun k => p k - m

/-- log Σ_k exp(p_k - m) = log Σ_k exp p_k - m. -/
private theorem log_sum_exp_shift (p : ℕ → ℝ) (m : ℝ) :
    Real.log (∑ k ∈ range 4096, Real.exp (p k - m)) = Real.log (∑ k ∈ range 4096, Real.exp (p k)) - m := by
  rw [sum_exp_shift, Real.log_mul (sum_exp_pos p).ne' (Real.exp_pos _).ne', Real.log_exp]
  ring

/-- The softmax does not depend on the shift. -/
private theorem softmax_shift (p : ℕ → ℝ) (m : ℝ) (j : ℕ) :
    Real.exp (p j - m) / (∑ k ∈ range 4096, Real.exp (p k - m))
      = Real.exp (p j) / (∑ k ∈ range 4096, Real.exp (p k)) := by
  rw [sum_exp_shift, sub_eq_add_neg, Real.exp_add]
  have h1 := (sum_exp_pos p).ne'
  have h2 := (Real.exp_pos (-m)).ne'
  field_simp

/-- The weighted sum of log-softmax differences, with any two shifts, is the shift-free KL divergence. -/
private theorem real_row (p q : ℕ → ℝ) (m m' : ℝ) :
    ∑ j ∈ range 4096, (Real.exp (p j - m) / ∑ k ∈ range 4096, Real.exp (p k - m)) *
        (((p j - m) - Real.log (∑ k ∈ range 4096, Real.exp (p k - m)))
          - ((q j - m') - Real.log (∑ k ∈ range 4096, Real.exp (q k - m'))))
      = rowKL p q := by
  simp only [softmax_shift, log_sum_exp_shift]
  unfold rowKL
  have hS := (sum_exp_pos p).ne'
  generalize hSdef : (∑ k ∈ range 4096, Real.exp (p k)) = S at hS ⊢
  generalize (∑ k ∈ range 4096, Real.exp (q k)) = T
  have h : ∀ j : ℕ, Real.exp (p j) / S * (p j - m - (Real.log S - m) - (q j - m' - (Real.log T - m')))
      = (Real.exp (p j) * (p j - q j)) / S + Real.exp (p j) / S * (Real.log T - Real.log S) := by
    intro j; ring
  simp only [h]
  rw [Finset.sum_add_distrib, ← Finset.sum_div, ← Finset.sum_mul, ← Finset.sum_div, hSdef, div_self hS, one_mul]

/-! ## The same over the extended reals -/

/-- With real logits and a real shift the two-pass softmax is the real quotient. -/
private theorem softmaxAt_coe (p : ℕ → ℝ) (sp : Fin 4096 → EReal)
    (hsp : ∀ j : Fin 4096, sp j = ((p j.val : ℝ) : EReal)) (m : ℝ) (j : Fin 4096) :
    softmaxAt sp (m : EReal) j
      = ((Real.exp (p j.val - m) / ∑ k ∈ range 4096, Real.exp (p k - m) : ℝ) : EReal) := by
  unfold softmaxAt
  rw [ofBits_zero, zero_add]
  simp only [hsp, ← EReal.coe_sub, Ideal.exp_coe]
  rw [coe_sum, Fin.sum_univ_eq_sum_range (fun k => Real.exp (p k - m)) 4096,
    Ideal.div_coe (sum_exp_shift_pos p m).ne', ← EReal.coe_mul, mul_one_div]

/-- The logarithm of that quotient is p_j - m - log Σ_k exp(p_k - m). -/
private theorem log_softmaxAt_coe (p : ℕ → ℝ) (sp : Fin 4096 → EReal)
    (hsp : ∀ j : Fin 4096, sp j = ((p j.val : ℝ) : EReal)) (m : ℝ) (j : Fin 4096) :
    Ideal.log (softmaxAt sp (m : EReal) j)
      = (((p j.val - m) - Real.log (∑ k ∈ range 4096, Real.exp (p k - m)) : ℝ) : EReal) := by
  have hZ := sum_exp_shift_pos p m
  rw [softmaxAt_coe p sp hsp m j, Ideal.log_coe,
    if_neg (not_le.mpr (div_pos (Real.exp_pos _) hZ)),
    Real.log_div (Real.exp_pos _).ne' hZ.ne', Real.log_exp]

/-- A row of the two-pass computation sums to the same KL divergence, whatever real shifts it used. -/
theorem ref_row (p q : ℕ → ℝ) (sp sq : Fin 4096 → EReal)
    (hsp : ∀ j : Fin 4096, sp j = ((p j.val : ℝ) : EReal)) (hsq : ∀ j : Fin 4096, sq j = ((q j.val : ℝ) : EReal))
    (Mp Mq : EReal) (hMp : ∃ r : ℝ, Mp = (r : EReal)) (hMq : ∃ r : ℝ, Mq = (r : EReal)) :
    ∑ j : Fin 4096, softmaxAt sp Mp j * (Ideal.log (softmaxAt sp Mp j) - Ideal.log (softmaxAt sq Mq j))
      = ((rowKL p q : ℝ) : EReal) := by
  obtain ⟨m, rfl⟩ := hMp
  obtain ⟨m', rfl⟩ := hMq
  have h : ∀ j : Fin 4096,
      softmaxAt sp (m : EReal) j * (Ideal.log (softmaxAt sp (m : EReal) j) - Ideal.log (softmaxAt sq (m' : EReal) j))
        = (((fun j : ℕ => (Real.exp (p j - m) / ∑ k ∈ range 4096, Real.exp (p k - m)) *
            (((p j - m) - Real.log (∑ k ∈ range 4096, Real.exp (p k - m)))
              - ((q j - m') - Real.log (∑ k ∈ range 4096, Real.exp (q k - m'))))) j.val : ℝ) : EReal) := by
    intro j
    rw [log_softmaxAt_coe p sp hsp m j, log_softmaxAt_coe q sq hsq m' j, softmaxAt_coe p sp hsp m j,
      ← EReal.coe_sub, ← EReal.coe_mul]
  rw [Finset.sum_congr rfl fun j _ => h j, coe_sum]
  exact congrArg _ ((Fin.sum_univ_eq_sum_range (fun j : ℕ =>
    (Real.exp (p j - m) / ∑ k ∈ range 4096, Real.exp (p k - m)) *
      (((p j - m) - Real.log (∑ k ∈ range 4096, Real.exp (p k - m)))
        - ((q j - m') - Real.log (∑ k ∈ range 4096, Real.exp (q k - m'))))) 4096).trans (real_row p q m m'))

end Cert.KL

end
-- ==== Proof.RefValue.lean ====
/-
  The reference program's two results as functions of its four arguments: each entry of a similarity matrix is a
  cosine logit over the temperature; each row's softmax is the two-pass softmax at that row's maximum, which is a
  real number; the mean over all pairs of softmax(t)·(log softmax(t) − log softmax(s)) is the sum over the rows of
  each row's KL divergence, over 2^24.
-/
import proofs.«139187_j678604833494_1_alg».proof.Defs
import proofs.«139187_j678604833494_1_alg».proof.Proof.Gen.ReferenceIdeal.Run
import proofs.«139187_j678604833494_1_alg».proof.Proof.Gen.ReferenceIdeal.Read
import proofs.«139187_j678604833494_1_alg».proof.Proof.SpecLoss
import proofs.«139187_j678604833494_1_alg».proof.Proof.SpecRef
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-! ## Indices by their coordinates -/

/-- A rank-2 index with coordinates a and b is (a, b). -/
private theorem ix2_eq {n0 n1 : ℕ} (j : (⟨2, ![n0, n1]⟩ : Shape).Idx) (a : Fin n0) (b : Fin n1)
    (h0 : (j 0).val = a.val) (h1 : (j 1).val = b.val) : j = ix2 a b := by
  funext c
  match c with
  | ⟨0, _⟩ => exact Fin.ext h0
  | ⟨1, _⟩ => exact Fin.ext h1

/-- A rank-1 index with coordinate a is (a). -/
private theorem ix1_eq {n : ℕ} (j : (⟨1, ![n]⟩ : Shape).Idx) (a : Fin n) (h0 : (j 0).val = a.val) : j = ix1 a := by
  funext c
  match c with
  | ⟨0, _⟩ => exact Fin.ext h0

/-! ## One similarity matrix: logits, row maxima, softmax -/

/-- The clamped norm of row i. -/
private theorem norm_apply (x : Cert.KL.Arr) (i : Fin 4096) :
    val_main_v5 (F := Ideal) x (ix2 i (0 : Fin 1)) = Cert.KL.nrm (Cert.KL.rowAt x i) := by
  rw [val_main_v5_apply, val_main_v3_apply, val_main_v2_apply, val_main_v1_apply, val_main_v4_apply]
  unfold Cert.KL.nrm
  show max (Ideal.sqrt (Ideal.ofBits .f32 0x00000000#32 + ∑ k : Fin 768, _)) (Ideal.ofBits .f32 0x322BCC77#32) = _
  rw [Cert.KL.ofBits_zero, zero_add]
  refine congrArg (fun s => max (Ideal.sqrt s) (Ideal.ofBits .f32 0x322BCC77#32)) (Finset.sum_congr rfl fun k _ => ?_)
  rw [val_main_v0_apply, ix2_eq (idx_main_v1 (idx_main_v2 (ix2 i (0 : Fin 1))) k) i k rfl rfl]
  rfl

/-- An entry of the row-normalised array. -/
private theorem unit_apply (x : Cert.KL.Arr) (i : Fin 4096) (d : Fin 768) :
    val_main_v7 (F := Ideal) x (ix2 i d) = Ideal.div (x (ix2 i d)) (Cert.KL.nrm (Cert.KL.rowAt x i)) := by
  rw [val_main_v7_apply, val_main_v6_apply, ix2_eq (idx_main_v6 (ix2 i d)) i (0 : Fin 1) rfl rfl, norm_apply]
  rfl

/-- An entry of the similarity matrix over the temperature is the cosine logit of the two rows. -/
private theorem logit_apply (x y : Cert.KL.Arr) (i j : Fin 4096) :
    val_main_v19 (F := Ideal) x y (ix2 i j) = Cert.KL.logit (Cert.KL.rowAt x i) (Cert.KL.rowAt y j) := by
  rw [val_main_v19_apply, val_main_v18_apply, val_main_v17_apply]
  refine (Cert.KL.div_temperature _).trans ?_
  unfold Cert.KL.logit
  refine congrArg (· * Cert.KL.invT) (Finset.sum_congr rfl fun k _ => ?_)
  rw [val_main_v16_apply, ix2_eq (lidx_main_v17 (ix2 i j) k) i k rfl rfl,
    ix2_eq (idx_main_v16 (ridx_main_v17 (ix2 i j) k)) j k rfl rfl, unit_apply]
  exact congrArg (Ideal.div (x (ix2 i k)) (Cert.KL.nrm (Cert.KL.rowAt x i)) * ·) (unit_apply y j k)

/-- The index over row i with column j on the reduced axis is (i, j). -/
private theorem lift_row (h : S4096x4096.Reduces [1] S4096) (i j : Fin 4096) : h.lift (ix1 i) j = ix2 i j := by
  funext a
  match a with
  | ⟨0, _⟩ => rfl
  | ⟨1, _⟩ => rfl

/-- The row maximum before the clamp against minus infinity: the fold of max over the row's logits. -/
private theorem rowfold_apply (x y : Cert.KL.Arr) (i : Fin 4096) :
    val_main_v20 (F := Ideal) x y (ix1 i)
      = (Finset.univ : Finset (Fin 4096)).fold max (Ideal.ofBits .f32 0xFF800000#32)
          (fun j => Cert.KL.logit (Cert.KL.rowAt x i) (Cert.KL.rowAt y j)) := by
  have hR : S4096x4096.Reduces [1] S4096 := by decide
  unfold val_main_v20
  refine (Host.reduce_eq_fold_single FloatOps.maximumf _ _ reducesTo_S4096x4096_S4096_d1 hR h_S_ (ix1 i)).trans ?_
  show (Finset.univ : Finset (Fin 4096)).fold max (Ideal.ofBits .f32 0xFF800000#32)
      (fun j => val_main_v19 (F := Ideal) x y (hR.lift (ix1 i) j)) = _
  refine congrArg (fun f : Fin 4096 → EReal => (Finset.univ : Finset (Fin 4096)).fold max (Ideal.ofBits .f32 0xFF800000#32) f)
    (funext fun j => ?_)
  rw [lift_row hR i j]
  exact logit_apply x y i j

/-- With real inputs a row's maximum is a real number. -/
private theorem rowmax_real (x y : Cert.KL.Arr) (hx : Cert.KL.Real2 x) (hy : Cert.KL.Real2 y) (i : Fin 4096) :
    ∃ r : ℝ, val_main_v22 (F := Ideal) x y (ix1 i) = (r : EReal) := by
  obtain ⟨r, hr⟩ := Cert.KL.fold_max_coe (n := 4095)
    (fun j : Fin 4096 => Cert.KL.logit (Cert.KL.rowAt x i) (Cert.KL.rowAt y j))
    (fun j => ⟨_, (Cert.KL.logit_coe _ _ (fun d => hx _) (fun d => hy _)).symm⟩)
  have hr' : (Finset.univ : Finset (Fin 4096)).fold max (Ideal.ofBits .f32 0xFF800000#32)
      (fun j => Cert.KL.logit (Cert.KL.rowAt x i) (Cert.KL.rowAt y j)) = (r : EReal) := hr
  refine ⟨r, ?_⟩
  rw [val_main_v22_apply, val_main_v21_apply, rowfold_apply, hr']
  show max (Ideal.ofBits .f32 0xFF800000#32) (r : EReal) = (r : EReal)
  rw [Cert.KL.ofBits_neg_inf]
  exact max_eq_right bot_le

/-- The exponential of a logit less its row's maximum. -/
private theorem exp_apply (x y : Cert.KL.Arr) (i j : Fin 4096) :
    val_main_v26 (F := Ideal) x y (ix2 i j)
      = Ideal.exp (Cert.KL.logit (Cert.KL.rowAt x i) (Cert.KL.rowAt y j) - val_main_v22 (F := Ideal) x y (ix1 i)) := by
  rw [val_main_v26_apply, val_main_v25_apply, val_main_v24_apply, val_main_v23_apply, logit_apply,
    ix1_eq (idx_main_v23 (idx_main_v24 (ix2 i j))) i rfl]
  rfl

/-- An entry of the softmax is the two-pass softmax of its row at the row's maximum. -/
private theorem softmax_apply (x y : Cert.KL.Arr) (i j : Fin 4096) :
    val_main_v30 (F := Ideal) x y (ix2 i j)
      = Cert.KL.softmaxAt (fun j => Cert.KL.logit (Cert.KL.rowAt x i) (Cert.KL.rowAt y j))
          (val_main_v22 (F := Ideal) x y (ix1 i)) j := by
  rw [val_main_v30_apply, val_main_v29_apply, val_main_v28_apply, val_main_v27_apply, exp_apply x y i j]
  unfold Cert.KL.softmaxAt
  show Ideal.div _ (Ideal.ofBits .f32 0x00000000#32 + ∑ k : Fin 4096, _) = _
  refine congrArg (fun s => Ideal.div
      (Ideal.exp (Cert.KL.logit (Cert.KL.rowAt x i) (Cert.KL.rowAt y j) - val_main_v22 (F := Ideal) x y (ix1 i)))
      (Ideal.ofBits .f32 0x00000000#32 + s)) (Finset.sum_congr rfl fun k _ => ?_)
  rw [ix2_eq (idx_main_v27 (idx_main_v28 (idx_main_v29 (ix2 i j))) k) i k rfl rfl, exp_apply x y i k]

/-! ## One row's divergence -/

/-- The KL summands of row i of softmax(x, y) against softmax(z, w) sum to the row's divergence. -/
private theorem row_kl (x y z w : Cert.KL.Arr) (hx : Cert.KL.Real2 x) (hy : Cert.KL.Real2 y)
    (hz : Cert.KL.Real2 z) (hw : Cert.KL.Real2 w) (i : Fin 4096) :
    ∑ j : Fin 4096, val_main_v30 (F := Ideal) x y (ix2 i j)
        * (Ideal.log (val_main_v30 (F := Ideal) x y (ix2 i j)) - Ideal.log (val_main_v30 (F := Ideal) z w (ix2 i j)))
      = ((Cert.KL.rowKL (Cert.KL.rowLogits x y i) (Cert.KL.rowLogits z w i) : ℝ) : EReal) := by
  refine Eq.trans ?_ (Cert.KL.ref_row (Cert.KL.rowLogits x y i) (Cert.KL.rowLogits z w i)
    (fun j => Cert.KL.logit (Cert.KL.rowAt x i) (Cert.KL.rowAt y j))
    (fun j => Cert.KL.logit (Cert.KL.rowAt z i) (Cert.KL.rowAt w j))
    (fun j => by rw [Cert.KL.rowLogits_coe x y hx hy i j.val, Cert.KL.colIdx_val])
    (fun j => by rw [Cert.KL.rowLogits_coe z w hz hw i j.val, Cert.KL.colIdx_val])
    (val_main_v22 (F := Ideal) x y (ix1 i)) (val_main_v22 (F := Ideal) z w (ix1 i))
    (rowmax_real x y hx hy i) (rowmax_real z w hz hw i))
  refine Finset.sum_congr rfl fun j _ => ?_
  rw [softmax_apply x y i j, softmax_apply z w i j]

/-- The second similarity matrix's softmax is the first's at the other two arguments. -/
private theorem softmax_second : val_main_v61 (F := Ideal) = val_main_v30 (F := Ideal) := rfl

/-! ## The two results -/

/-- The first result: the mean of the KL summands of the teacher's softmax against the student's. -/
theorem loss_s (x0 x1 x2 x3 : Cert.KL.Arr) (h0 : Cert.KL.Real2 x0) (h1 : Cert.KL.Real2 x1) (h2 : Cert.KL.Real2 x2) (h3 : Cert.KL.Real2 x3) :
    val_main_v67 (F := Ideal) x0 x1 x2 x3 = Cert.KL.loss (Cert.KL.rowLogits x2 x3) (Cert.KL.rowLogits x0 x1) := by
  funext u
  rw [val_main_v67_apply, val_main_v66_apply]
  unfold Cert.KL.loss
  show Ideal.div (Ideal.ofBits .f32 0x00000000#32 + ∑ j : S4096x4096.Idx, val_main_v65 (F := Ideal) x0 x1 x2 x3 j)
      (Ideal.ofBits .f32 0x4B800000#32) = _
  refine congrArg (fun s => Ideal.div (Ideal.ofBits .f32 0x00000000#32 + s) (Ideal.ofBits .f32 0x4B800000#32)) ?_
  refine (sum_idx2 _).trans (Finset.sum_congr rfl fun i _ => ?_)
  refine Eq.trans ?_ (row_kl x2 x3 x0 x1 h2 h3 h0 h1 i)
  refine Finset.sum_congr rfl fun j _ => ?_
  rw [val_main_v65_apply, val_main_v64_apply, val_main_v63_apply, val_main_v62_apply, softmax_second]
  rfl

/-- The second result: the mean of the KL summands of the student's softmax against the teacher's. -/
theorem loss_t (x0 x1 x2 x3 : Cert.KL.Arr) (h0 : Cert.KL.Real2 x0) (h1 : Cert.KL.Real2 x1) (h2 : Cert.KL.Real2 x2) (h3 : Cert.KL.Real2 x3) :
    val_main_v73 (F := Ideal) x0 x1 x2 x3 = Cert.KL.loss (Cert.KL.rowLogits x0 x1) (Cert.KL.rowLogits x2 x3) := by
  funext u
  rw [val_main_v73_apply, val_main_v72_apply]
  unfold Cert.KL.loss
  show Ideal.div (Ideal.ofBits .f32 0x00000000#32 + ∑ j : S4096x4096.Idx, val_main_v71 (F := Ideal) x0 x1 x2 x3 j)
      (Ideal.ofBits .f32 0x4B800000#32) = _
  refine congrArg (fun s => Ideal.div (Ideal.ofBits .f32 0x00000000#32 + s) (Ideal.ofBits .f32 0x4B800000#32)) ?_
  refine (sum_idx2 _).trans (Finset.sum_congr rfl fun i _ => ?_)
  refine Eq.trans ?_ (row_kl x0 x1 x2 x3 h0 h1 h2 h3 i)
  refine Finset.sum_congr rfl fun j _ => ?_
  rw [val_main_v71_apply, val_main_v70_apply, val_main_v69_apply, val_main_v68_apply, softmax_second]
  rfl

end Cert.ReferenceIdeal.RefValue

end
-- ==== Proof.Finite.lean ====
/-
  The precondition says every entry of the four inputs has absolute value below plus infinity; over the extended
  reals that is: every entry is a real number.
-/
import proofs.«139187_j678604833494_1_alg».proof.Pre_finite_inputs
import proofs.«139187_j678604833494_1_alg».proof.Proof.SpecLoss
import Idealize.ShloMosaic.Lib.ReduceAll
import Idealize.ShloMosaic.Lib.ValueIdx

noncomputable section

namespace Cert.Finite

open Idealize.ShloMosaic Idealize.ShloMosaic.ValueIdx

/-- The pattern of plus infinity is the top element. -/
theorem ofBits_pos_inf : Ideal.ofBits .f32 0x7F800000#32 = ⊤ := by
  simp [Ideal.ofBits, Ideal.ieee]

/-- An extended real whose absolute value is strictly below the top element is a real number. -/
private theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- If all entries of an array compare below plus infinity in absolute value, every entry is a real number. -/
private theorem real2_of_all (X : FVec Ideal Cert.Pre_finite_inputs.S4096x768 .f32)
    (init : IVec Cert.Pre_finite_inputs.S_ 1)
    (hb : Cert.Pre_finite_inputs.S_.BroadcastsInDim Cert.Pre_finite_inputs.S4096x768
      (![] : Fin 0 → Fin Cert.Pre_finite_inputs.S4096x768.rank))
    (hr : Cert.Pre_finite_inputs.S4096x768.ReducesTo [0, 1] Cert.Pre_finite_inputs.S_)
    (hu : 0 < Cert.Pre_finite_inputs.S_.numel)
    (e : Host.reduce IntOp.andi
        (cmpf .olt (Host.absf X)
          (broadcastInDim Cert.Pre_finite_inputs.S4096x768 ![] hb
            (constant (F := Ideal) Cert.Pre_finite_inputs.S_ .f32 0x7F800000#32)))
        init hr hu ix0 = 1#1) :
    ∀ i, ∃ r : ℝ, X i = (r : EReal) := by
  intro i
  have hi := Host.reduce_andi_all _ init hr hu ix0 e i
  have hi' : Ideal.cmp .olt (max (X i) (-(X i))) (Ideal.ofBits .f32 0x7F800000#32) = 1#1 := hi
  rw [ofBits_pos_inf] at hi'
  exact real_of_abs_lt_top (X i) hi'

/-- If the printed precondition evaluates to all ones on four input arrays, every entry of each is a real number. -/
theorem real_of_pre [Cert.Pre_finite_inputs.Facts] (x0 x1 x2 x3 : Cert.KL.Arr)
    (h : Cert.Pre_finite_inputs.fn (F := Ideal) x0 x1 x2 x3 = fun _ => 1#1) :
    Cert.KL.Real2 x0 ∧ Cert.KL.Real2 x1 ∧ Cert.KL.Real2 x2 ∧ Cert.KL.Real2 x3 := by
  have h0 := congrFun h ix0
  unfold Cert.Pre_finite_inputs.fn Cert.Pre_finite_inputs.fn_part1 at h0
  dsimp only at h0
  obtain ⟨h123, h4⟩ := IntOp.andi_eq_one.1 h0
  obtain ⟨h12, h3⟩ := IntOp.andi_eq_one.1 h123
  obtain ⟨h1, h2⟩ := IntOp.andi_eq_one.1 h12
  exact ⟨real2_of_all x0 _ _ _ _ h1, real2_of_all x1 _ _ _ _ h2, real2_of_all x2 _ _ _ _ h3,
    real2_of_all x3 _ _ _ _ h4⟩

end Cert.Finite

end
-- ==== Proof.lean ====
/-
  The certificate: a one-pass (running maximum, rescaled sums) computation of the symmetric KL divergence between the
  row softmaxes of two cosine-similarity matrices equals, over the extended reals and for finite inputs, the two-pass
  computation that materialises both softmaxes.

  Frames: the two kernel programs run by their frame certificates; the reference by its run. The idealization names
  the kernel's folded reciprocal temperature 10.0 as the exact reciprocal of the f32 nearest to 0.1, the number the
  reference divides by (twice: the ledger's two entries). Algebraic: with finite inputs every cosine logit is a real
  number; each row's carried state is, after every column block, the sums Σ exp(s_j − μ) and Σ exp(s_j − μ)·(s_j − t_j)
  at SOME real shift μ, and the quantities the last block forms from them do not depend on the shift; the reference's
  softmax at the row maximum is the same function at another shift. Both programs therefore end at the sum over the
  rows of each row's KL divergence, over 2^24.
-/
import proofs.«139187_j678604833494_1_alg».proof.Defs
import proofs.«139187_j678604833494_1_alg».proof.Proof.Gen.Kernel
import proofs.«139187_j678604833494_1_alg».proof.Proof.Gen.KernelIdeal
import proofs.«139187_j678604833494_1_alg».proof.Proof.Gen.ReferenceIdeal
import proofs.«139187_j678604833494_1_alg».proof.Proof.Gen.Pre_finite_inputs
import proofs.«139187_j678604833494_1_alg».proof.Proof.Gen.ReferenceIdeal.Run
import proofs.«139187_j678604833494_1_alg».proof.Proof.Gen.ReferenceIdeal.Read
import proofs.«139187_j678604833494_1_alg».proof.Proof.FrameKernel
import proofs.«139187_j678604833494_1_alg».proof.Proof.FrameKernelIdeal
import proofs.«139187_j678604833494_1_alg».proof.Proof.KernelFinal
import proofs.«139187_j678604833494_1_alg».proof.Proof.RefValue
import proofs.«139187_j678604833494_1_alg».proof.Proof.Finite
import Idealize.ShloMosaic.Adequacy
import Idealize.ShloMosaic.Init

noncomputable section

namespace Cert.Proof

open Idealize.ShloMosaic Idealize.SL.Sem

/-- The kernel's frame is its generated frame certificate. -/
theorem frame_k : Cert.frame_Kernel := fun m ρ _ => Cert.Kernel.Gen.frame m ρ

/-- The idealized kernel's frame is its generated frame certificate. -/
theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ledger's two entries, both the same name: 10.0 read as 134217728 / 13421773 = 1 / f32(0.1). -/
theorem preserves : Cert.preserves_Kernel_KernelIdeal :=
  ⟨IdealRules.named_const.statement Cert.KernelIdeal.κ "fold_c_134217728_13421773" .f32 0x41200000#32 ((134217728 / 13421773 : ℝ) : EReal) rfl,
   IdealRules.named_const.statement Cert.KernelIdeal.κ "fold_c_134217728_13421773" .f32 0x41200000#32 ((134217728 / 13421773 : ℝ) : EReal) rfl⟩

/-- Both programs end at the rows' KL divergences summed over 2^24: the kernel by its carried columns, the reference
    by its softmaxes, of arguments that agree and are finite. -/
theorem algebraic : Cert.algebraic_KernelIdeal_ReferenceIdeal := by
  intro m ρ m' ρ' hpre hagree
  have hR : ∀ c, Cert.KernelIdeal.Inv.RealIn m c := fun c => Cert.Finite.real_of_pre _ _ _ _ (hpre c)
  refine ⟨fun c => Cert.KL.loss (Cert.KernelIdeal.Arrays.B m c) (Cert.KernelIdeal.Arrays.A m c),
    fun c => Cert.KL.loss (Cert.KernelIdeal.Arrays.A m c) (Cert.KernelIdeal.Arrays.B m c),
    Cert.KernelIdeal.Final.run m ρ hR, ?_⟩
  refine (θ_run Cert.ReferenceIdeal.defs _ _).mono (fun _ h c => ?_) (Cert.ReferenceIdeal.Value.run (F := Ideal) m' ρ')
  obtain ⟨h67, h73, ha0, ha1, ha2, ha3⟩ := h c
  refine ⟨?_, ?_, ha0, ha1, ha2, ha3⟩
  · rw [h67, Cert.ReferenceIdeal.Read.val_main_v67_eq, (hagree c).1, (hagree c).2.1, (hagree c).2.2.1, (hagree c).2.2.2]
    exact Cert.ReferenceIdeal.RefValue.loss_s _ _ _ _ (hR c).1 (hR c).2.1 (hR c).2.2.1 (hR c).2.2.2
  · rw [h73, Cert.ReferenceIdeal.Read.val_main_v73_eq, (hagree c).1, (hagree c).2.1, (hagree c).2.2.1, (hagree c).2.2.2]
    exact Cert.ReferenceIdeal.RefValue.loss_t _ _ _ _ (hR c).1 (hR c).2.1 (hR c).2.2.1 (hR c).2.2.2

/-- The certificate: the four programs' side conditions, the three frames, the named constant, and the equality of the two results. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
